-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x1024 : Shape := ⟨2, ![32000, 1024]⟩
abbrev S32000 : Shape := ⟨1, ![32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S32000 : S_.BroadcastsInDim S32000 (![] : Fin 0 → Fin S32000.rank)
  reducesTo_S32000_S_d0 : S32000.ReducesTo [0] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg0 : IVec S4x2048 32) (main_v13 : IVec S_ 1) (main_v15 : IVec S4x2048 1) (main_c_5 : IVec S_ 1) : IVec S_ 1 :=
  let main_v16 : IVec S_ 1 := (fun x v => Host.reduce IntOp.andi x v reducesTo_S4x2048_S_d0_1 h_S_) main_v15 main_c_5
  let main_v17 : IVec S_ 1 := andi main_v13 main_v16
  let main_c_6 : IVec S_ 32 := constantI S_ 32 32000#32
  let main_v18 : IVec S4x2048 32 := broadcastInDim S4x2048 ![] bcast_S_S4x2048 main_c_6
  let main_v19 : IVec S4x2048 1 := cmpi .slt main_arg0 main_v18
  let main_c_7 : IVec S_ 1 := constantI S_ 1 1#1
  let main_v20 : IVec S_ 1 := (fun x v => Host.reduce IntOp.andi x v reducesTo_S4x2048_S_d0_1 h_S_) main_v19 main_c_7
  let main_v21 : IVec S_ 1 := andi main_v17 main_v20
  main_v21

def fn {F : FTy → Type} [FloatOps F] (main_arg0 : IVec S4x2048 32) (main_arg1 : FVec F S32000x1024 .f32) (main_arg2 : FVec F S32000x1024 .f32) (main_arg3 : FVec F S32000 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S32000x1024 .f32 := Host.absf main_arg2
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_c_4 : IVec S_ 32 := constantI S_ 32 0#32
  let main_v14 : IVec S4x2048 32 := broadcastInDim S4x2048 ![] bcast_S_S4x2048 main_c_4
  let main_v15 : IVec S4x2048 1 := cmpi .sge main_arg0 main_v14
  let main_c_5 : IVec S_ 1 := constantI S_ 1 1#1
  fn_part1 (F := F) main_arg0 main_v13 main_v15 main_c_5
-- ==== Kernel.lean ====
abbrev S4x2048 : Shape := ⟨2, ![4, 2048]⟩
abbrev S32000x1024 : Shape := ⟨2, ![32000, 1024]⟩
abbrev S32000 : Shape := ⟨1, ![32000]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x1024 : Shape := ⟨2, ![8192, 1024]⟩
abbrev S1x32000 : Shape := ⟨2, ![1, 32000]⟩
abbrev S1024x1024 : Shape := ⟨2, ![1024, 1024]⟩
abbrev S1280x1024 : Shape := ⟨2, ![1280, 1024]⟩
abbrev S1x1280 : Shape := ⟨2, ![1, 1280]⟩
abbrev S1024x128 : Shape := ⟨2, ![1024, 128]⟩
abbrev S1024x1280 : Shape := ⟨2, ![1024, 1280]⟩
abbrev S1024x1 : Shape := ⟨2, ![1024, 1]⟩
abbrev S1024 : Shape := ⟨1, ![1024]⟩
abbrev S4x2048x1024 : Shape := ⟨3, ![4, 2048, 1024]⟩

abbrev nBuf : Space → Nat
  | .hbm => 33
  | .vmem => 11
  | .smem => 0
  | _ => 0

abbrev bufTy : (tb : Table) → Fin (tcTables nBuf tb) → BufTy
  | .hbm, ⟨0, _⟩ => ⟨S4x2048, .i32⟩
  | .hbm, ⟨1, _⟩ => ⟨S32000x1024, .f32⟩
  | .hbm, ⟨2, _⟩ => ⟨S32000x1024, .f32⟩
  | .hbm, ⟨3, _⟩ => ⟨S32000, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x1024, .f32⟩
  | .hbm, ⟨24, _⟩ => ⟨S8192x1024, .i1⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S32000x1024, .bf16⟩
  | .hbm, ⟨30, _⟩ => ⟨S1x32000, .f32⟩
  | .hbm, ⟨31, _⟩ => ⟨S8192x1024, .f32⟩
  | .hbm, ⟨32, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1x1280, .f32⟩
  | .local _ .vmem, ⟨5, _⟩ => ⟨S1x1280, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x128, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v45 : BitVec 1 := Scalar.cmpi .eq arg1 c24_i32
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bitsLt_bf16_f32 : FTy.bits .bf16 < FTy.bits .f32
  shapeCasts_S32000_S1x32000 : S32000.ShapeCasts S1x32000
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S1024x128_S1024x1_0_0 : ∀ a, (![0, 0] : Fin 2 → Nat) a + S1024x1.size a ≤ S1024x128.size a
  h_S1024x1 : 0 < S1024x1.numel
  reduces_S1024x1280_S1024 : S1024x1280.Reduces [1] S1024
  shapeCasts_S1024_S1024x1 : S1024.ShapeCasts S1024x1
  broadcasts_S1024x1_S1024x1280 : S1024x1.Broadcasts S1024x1280
  broadcasts_S1024x1_S1024x1024 : S1024x1.Broadcasts S1024x1024
  shapeCasts_S1024x1_S1024x1 : S1024x1.ShapeCasts S1024x1
  broadcasts_S1024x1_S1024x128 : S1024x1.Broadcasts S1024x128
  shapeCasts_S8192x1024_S4x2048x1024 : S8192x1024.ShapeCasts S4x2048x1024
  gather_S32000x1024_S8192x1_S8192x1024_1_0_n_n_0_1_11024_wf : GatherDims.WF S32000x1024 S8192x1 S8192x1024 [1] [0] [] [0] [] 1 ![1, 1024]
  dot_S1024x1024_S1280x1024_S1024x1280_1_1_0_0_n_n_wf : DotDims.WF S1024x1024 S1280x1024 S1024x1280 [1] [1] [0] [0] [] []
  dot_S1024x1280_S1280x1024_S1024x1024_1_0_0_1_n_n_wf : DotDims.WF S1024x1280 S1280x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .bf16 = 32 ∨ (Rect.block (s := S32000x1024) S1280x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def gather_S32000x1024_S8192x1_S8192x1024_1_0_n_n_0_1_11024 : GatherDims S32000x1024 S8192x1 S8192x1024 where
  offsetDims := [1]
  collapsedSliceDims := [0]
  operandBatchingDims := []
  startIndicesBatchingDims := []
  startIndexMap := [0]
  indexVectorDim := 1
  sliceSizes := ![1, 1024]
  wf := gather_S32000x1024_S8192x1_S8192x1024_1_0_n_n_0_1_11024_wf
def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf
def dot_S1024x1280_S1280x1024_S1024x1024_1_0_0_1_n_n : DotDims S1024x1280 S1280x1024 S1024x1024 where
  lhsContracting := [1]
  rhsContracting := [0]
  lhsNonContracting := [0]
  rhsNonContracting := [1]
  lhsBatch := []
  rhsBatch := []
  wf := dot_S1024x1280_S1280x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048 : Shape := ⟨2, ![4, 2048]⟩
abbrev S32000x1024 : Shape := ⟨2, ![32000, 1024]⟩
abbrev S32000 : Shape := ⟨1, ![32000]⟩
abbrev S_ : Shape := ⟨0, ![]⟩
abbrev S4x2048x1 : Shape := ⟨3, ![4, 2048, 1]⟩
abbrev S4x2048x1024 : Shape := ⟨3, ![4, 2048, 1024]⟩
abbrev S4x2048x32000 : Shape := ⟨3, ![4, 2048, 32000]⟩
abbrev S1x1x32000 : Shape := ⟨3, ![1, 1, 32000]⟩

abbrev nBuf : Space → Nat
  | .hbm => 32
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S32000x1024, .f32⟩
  | .hbm, ⟨2, _⟩ => ⟨S32000x1024, .f32⟩
  | .hbm, ⟨3, _⟩ => ⟨S32000, .f32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S4x2048, .i32⟩
  | .hbm, ⟨11, _⟩ => ⟨S4x2048x1, .i32⟩
  | .hbm, ⟨12, _⟩ => ⟨S4x2048x1024, .f32⟩
  | .hbm, ⟨13, _⟩ => ⟨S4x2048x32000, .f32⟩
  | .hbm, ⟨14, _⟩ => ⟨S1x1x32000, .f32⟩
  | .hbm, ⟨15, _⟩ => ⟨S4x2048x32000, .f32⟩
  | .hbm, ⟨16, _⟩ => ⟨S4x2048x32000, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S4x2048x1, .f32⟩
  | .hbm, ⟨23, _⟩ => ⟨S4x2048x32000, .f32⟩
  | .hbm, ⟨24, _⟩ => ⟨S4x2048x32000, .f32⟩
  | .hbm, ⟨25, _⟩ => ⟨S4x2048x32000, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S4x2048x32000, .f32⟩
  | .hbm, ⟨30, _⟩ => ⟨S4x2048x32000, .f32⟩
  | .hbm, ⟨31, _⟩ => ⟨S4x2048x1024, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S32000_S1x1x32000_2 : S32000.BroadcastsInDim S1x1x32000 (![2] : Fin 1 → Fin S1x1x32000.rank)
  bcast_S1x1x32000_S4x2048x32000_0_1_2 : S1x1x32000.BroadcastsInDim S4x2048x32000 (![0, 1, 2] : Fin 3 → Fin S4x2048x32000.rank)
  reducesTo_S4x2048x32000_S4x2048_d2 : S4x2048x32000.ReducesTo [2] S4x2048
  h_S_ : 0 < S_.numel
  bcast_S4x2048x1_S4x2048x32000_0_1_2 : S4x2048x1.BroadcastsInDim S4x2048x32000 (![0, 1, 2] : Fin 3 → Fin S4x2048x32000.rank)
  gather_S32000x1024_S4x2048x1_S4x2048x1024_2_0_n_n_0_2_11024_wf : GatherDims.WF S32000x1024 S4x2048x1 S4x2048x1024 [2] [0] [] [0] [] 2 ![1, 1024]
  dot_S4x2048x1024_S32000x1024_S4x2048x32000_2_1_01_0_n_n_wf : DotDims.WF S4x2048x1024 S32000x1024 S4x2048x32000 [2] [1] [0, 1] [0] [] []
  dot_S4x2048x32000_S32000x1024_S4x2048x1024_2_0_01_1_n_n_wf : DotDims.WF S4x2048x32000 S32000x1024 S4x2048x1024 [2] [0] [0, 1] [1] [] []

variable [Facts₀]

def gather_S32000x1024_S4x2048x1_S4x2048x1024_2_0_n_n_0_2_11024 : GatherDims S32000x1024 S4x2048x1 S4x2048x1024 where
  offsetDims := [2]
  collapsedSliceDims := [0]
  operandBatchingDims := []
  startIndicesBatchingDims := []
  startIndexMap := [0]
  indexVectorDim := 2
  sliceSizes := ![1, 1024]
  wf := gather_S32000x1024_S4x2048x1_S4x2048x1024_2_0_n_n_0_2_11024_wf
def dot_S4x2048x1024_S32000x1024_S4x2048x32000_2_1_01_0_n_n : DotDims S4x2048x1024 S32000x1024 S4x2048x32000 where
  lhsContracting := [2]
  rhsContracting := [1]
  lhsNonContracting := [0, 1]
  rhsNonContracting := [0]
  lhsBatch := []
  rhsBatch := []
  wf := dot_S4x2048x1024_S32000x1024_S4x2048x32000_2_1_01_0_n_n_wf
def dot_S4x2048x32000_S32000x1024_S4x2048x1024_2_0_01_1_n_n : DotDims S4x2048x32000 S32000x1024 S4x2048x1024 where
  lhsContracting := [2]
  rhsContracting := [0]
  lhsNonContracting := [0, 1]
  rhsNonContracting := [1]
  lhsBatch := []
  rhsBatch := []
  wf := dot_S4x2048x32000_S32000x1024_S4x2048x1024_2_0_01_1_n_n_wf

class Facts : Prop extends Facts₀ where

variable [Facts]
-- ==== Proof.PreFacts.lean ====
import proofs.«419553_j24120536334837_2_alg».proof.Pre_finite_inputs
import proofs.«419553_j24120536334837_2_alg».proof.Proof.Gen.Pre_finite_inputs
import Idealize.ShloMosaic.PureOps.Ideal.Laws
import Idealize.ShloMosaic.Lib.ReduceAll
import Idealize.ShloMosaic.Lib.ValueIdx
import Idealize.ShloMosaic.Lib.StableHlo.Predicate

/-! The precondition read entry by entry: every entry of the embedding table, of the projection matrix and of
    the bias is a real number, and every token id, read as an unsigned word, is below 32000 (so it is a
    non-negative signed word below 32000: a valid row of the table). -/

noncomputable section

namespace Cert.PreFacts

open Idealize.ShloMosaic

/-- The result of a reduction over all axes has one index: a rank-0 shape has no coordinate to differ in. -/
instance : Subsingleton Cert.Pre_finite_inputs.S_.Idx := ⟨fun a b => funext fun d => d.elim0⟩

/-- An extended real whose absolute value max x (−x) is strictly below +∞ is a real number: the pattern
    0x7F800000 denotes ⊤, and at x = ⊥ or x = ⊤ the absolute value is ⊤ itself, which is not below ⊤. -/
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- A 32-bit word x with 0 ≤ x and x < 32000 as signed numbers is below 32000 as an unsigned number: its signed
    value is its unsigned value when that is below 2³¹ and 2³² less otherwise, and the second case is negative. -/
theorem toNat_lt_of_cmpi (x : BitVec 32) (h0 : IntOp.cmpi .sge x 0#32 = 1#1) (h1 : IntOp.cmpi .slt x 32000#32 = 1#1) :
    x.toNat < 32000 := by
  simp only [IntOp.cmpi, StableHlo.Predicate.ofBool_eq_one_iff] at h0 h1
  rw [BitVec.sle_iff_toInt_le] at h0
  rw [BitVec.slt_iff_toInt_lt] at h1
  have e0 : (0#32 : BitVec 32).toInt = 0 := by decide
  have e1 : (32000#32 : BitVec 32).toInt = 32000 := by decide
  rw [e0] at h0
  rw [e1] at h1
  have hx := BitVec.toInt_eq_toNat_cond x
  split at hx <;> omega

/-- The precondition is a conjunction of five "for all entries" tests, each a reduction by "and" over every axis
    from the constant 1; the conjunction being 1 makes each test 1, and a test being 1 makes its mask 1 at every
    entry. The three float masks say |x| < +∞ entrywise (the bound is a broadcast constant, the same at every
    entry), the two integer masks say 0 ≤ id and id < 32000 as signed words. -/
theorem of_pre [Cert.Pre_finite_inputs.Facts] (ids : IVec Cert.Pre_finite_inputs.S4x2048 32)
    (e w : FVec Ideal Cert.Pre_finite_inputs.S32000x1024 .f32) (b : FVec Ideal Cert.Pre_finite_inputs.S32000 .f32)
    (h : Cert.Pre_finite_inputs.fn (F := Ideal) ids e w b = fun _ => 1#1) :
    (∀ i, ∃ r : ℝ, e i = (r : EReal)) ∧ (∀ i, ∃ r : ℝ, w i = (r : EReal)) ∧ (∀ i, ∃ r : ℝ, b i = (r : EReal))
      ∧ (∀ i, (ids i).toNat < 32000) := by
  have h0 := congrFun h ValueIdx.ix0
  dsimp only [Cert.Pre_finite_inputs.fn, Cert.Pre_finite_inputs.fn_part1] at h0
  simp only [andi, IntOp.andi_eq_one] at h0
  obtain ⟨⟨⟨⟨he, hw⟩, hb⟩, hge⟩, hlt⟩ := h0
  refine ⟨fun i => ?_, fun i => ?_, fun i => ?_, fun i => ?_⟩
  · exact real_of_abs_lt (e i) (Host.reduce_andi_all _ _ _ _ _ he i)
  · exact real_of_abs_lt (w i) (Host.reduce_andi_all _ _ _ _ _ hw i)
  · exact real_of_abs_lt (b i) (Host.reduce_andi_all _ _ _ _ _ hb i)
  · exact toNat_lt_of_cmpi (ids i) (Host.reduce_andi_all _ _ _ _ _ hge i) (Host.reduce_andi_all _ _ _ _ _ hlt i)

end Cert.PreFacts

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.HostPrefix.lean ====
import proofs.«419553_j24120536334837_2_alg».proof.Proof.Gen.KernelIdeal.Frame
import proofs.«419553_j24120536334837_2_alg».proof.Proof.LibColumns
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

/-! What the host operations before the launch hand the kernel, entry by entry: the embedding rows the
    token ids select (every id being a valid row, the out-of-range fill is never taken), the projection
    matrix itself (a change of float format is the identity on extended reals) and the bias as one row. -/

noncomputable section

namespace Cert.KernelIdeal.HostPrefix

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The token ids as one flat vector of 8192 words. -/
def idsFlat (c : Dev nD) : IVec S8192 32 :=
  shapeCast S8192 (m ((c : Thread nD τ).loc main_arg0) : IVec S4x2048 32) shapeCasts_S4x2048_S8192

/-- The ids with a negative one moved up by the table's height (the wrap-around of a negative index). -/
def idsWrapped (c : Dev nD) : IVec S8192 32 :=
  select (cmpi .slt (idsFlat m c) (broadcastInDim S8192 ![] bcast_S_S8192 (constantI S_ 32 0#32)))
    (addi (idsFlat m c) (broadcastInDim S8192 ![] bcast_S_S8192 (constantI S_ 32 32000#32)))
    (idsFlat m c)

/-- The wrapped ids as a column of start indices. -/
def idsCol (c : Dev nD) : IVec S8192x1 32 :=
  broadcastInDim S8192x1 ![0] bcast_S8192_S8192x1_0 (idsWrapped m c)

/-- Row by row: is the start index inside the table? -/
def inBounds (c : Dev nD) : IVec S8192 1 :=
  Host.reduce IntOp.andi
    (andi (cmpi .sge (idsCol m c) (broadcastInDim S8192x1 ![] bcast_S_S8192x1 (constantI S_ 32 0#32)))
      (cmpi .sle (idsCol m c) (broadcastInDim S8192x1 ![0, 1] bcast_S1x1_S8192x1_0_1
        (broadcastInDim S1x1 ![1] bcast_S1_S1x1_1 (constantI S1 32 31999#32)))))
    (constantI S_ 1 1#1) reducesTo_S8192x1_S8192_d1 h_S_

/-- The gathered rows, an out-of-range row filled with the not-a-number constant. -/
def taken (c : Dev nD) : FVec Ideal S8192x1024 .f32 :=
  select (broadcastInDim S8192x1024 ![0] bcast_S8192_S8192x1024_0 (inBounds m c))
    (Host.gather gather_S32000x1024_S8192x1_S8192x1024_1_0_n_n_0_1_11024
      (m ((c : Thread nD τ).loc main_arg1) : FVec Ideal S32000x1024 .f32) (idsCol m c))
    (broadcastInDim S8192x1024 ![] bcast_S_S8192x1024 (constant (F := Ideal) S_ .f32 0x7FC00000#32))

-- the fold runs through all twenty-seven operations before the region, one rewrite for each
set_option maxHeartbeats 4000000 in
/-- What the operations before the region leave in the gathered operand: the masked gather of the table at the
    wrapped ids, its float format changed. -/
theorem v2_eq (c : Dev nD) :
    @Eq (S8192x1024.Idx → EReal) (V m c main_v2) (truncf .bf16 (taken m c) bitsLt_bf16_f32) := by
  dsimp only [Gen.V, Gen.V0]
  simp only [Gen.hostOps0, Gen.hostOps0_1, Gen.hostOps0_2, List.flatten_cons, List.flatten_nil, List.append_nil,
    List.cons_append, List.nil_append]
  after_results <;> rfl

/-- The 4 × 2048 ids read as one vector of 8192: entry `2048·b + t` is `ids[b, t]`. -/
theorem flat_apply {α : Type} (x : S4x2048.Idx → α) (b : Fin 4) (t : Fin 2048) (hr : 2048 * b.val + t.val < 8192) :
    shapeCast S8192 x shapeCasts_S4x2048_S8192 (ix1 ⟨2048 * b.val + t.val, hr⟩) = x (ix2 b t) := by
  refine shapeCast_apply x shapeCasts_S4x2048_S8192 _ _ ?_
  rw [Shape.rowMajor_val_two, Shape.rowMajor_val_one]
  show b.val * 2048 + t.val = 2048 * b.val + t.val
  omega

open Idealize.ShloMosaic.StableHlo.Predicate in
/-- A valid row number is not negative, so the wrap-around leaves it as it is. -/
theorem wrap_apply (x : IVec S8192 32) (i : S8192.Idx) (hx : (x i).toNat < 32000) :
    select (cmpi .slt x (broadcastInDim S8192 ![] bcast_S_S8192 (constantI S_ 32 0#32)))
      (addi x (broadcastInDim S8192 ![] bcast_S_S8192 (constantI S_ 32 32000#32))) x i = x i := by
  rw [select_apply]
  have h0 : cmpi .slt x (broadcastInDim S8192 ![] bcast_S_S8192 (constantI S_ 32 0#32)) i = 0#1 := by
    apply eq_zero_of_ne_one
    show ¬ IntOp.cmpi .slt (x i) 0#32 = 1#1
    rw [slt_iff_toNat (by omega) (by decide)]
    exact Nat.not_lt_zero _
  rw [h0, select_zero]

/-- A vector laid out as a column reads, in row `r`, its entry `r`. -/
theorem col_apply {α : Type} (x : S8192.Idx → α) (r : Fin 8192) (u : Fin 1) :
    broadcastInDim S8192x1 ![0] bcast_S8192_S8192x1_0 x (ix2 r u) = x (ix1 r) :=
  broadcastInDim_apply _ bcast_S8192_S8192x1_0 x (ix2 r u) (ix1 r) (fun a => match a with
    | ⟨0, _⟩ => by show r.val = if (8192 : Nat) = 1 then 0 else r.val; rw [if_neg (by decide)])

/-- A vector laid along the rows of the 8192 × 1024 rectangle reads, at `(r, h)`, its entry `r`. -/
theorem rows_apply {α : Type} (x : S8192.Idx → α) (r : Fin 8192) (h : Fin 1024) :
    broadcastInDim S8192x1024 ![0] bcast_S8192_S8192x1024_0 x (ix2 r h) = x (ix1 r) :=
  broadcastInDim_apply _ bcast_S8192_S8192x1024_0 x (ix2 r h) (ix1 r) (fun a => match a with
    | ⟨0, _⟩ => by show r.val = if (8192 : Nat) = 1 then 0 else r.val; rw [if_neg (by decide)])

/-- A conjunction of bits that are all set, started from a set bit, is set. -/
theorem foldl_andi_one {ι : Type} (g : ι → BitVec 1) :
    ∀ (l : List ι), (∀ n ∈ l, g n = 1#1) → l.foldl (fun r n => IntOp.andi r (g n)) 1#1 = 1#1
  | [], _ => rfl
  | a :: l, h => by
    rw [List.foldl_cons, h a List.mem_cons_self, show IntOp.andi 1#1 1#1 = 1#1 from by decide]
    exact foldl_andi_one g l (fun n hn => h n (List.mem_cons_of_mem _ hn))

open Idealize.ShloMosaic.StableHlo.Predicate in
/-- When every start index is a valid row number the in-bounds test holds in every row. -/
theorem inRange_apply (v : IVec S8192x1 32) (hv : ∀ i, (v i).toNat < 32000) (j : S8192.Idx) :
    Host.reduce IntOp.andi
      (andi (cmpi .sge v (broadcastInDim S8192x1 ![] bcast_S_S8192x1 (constantI S_ 32 0#32)))
        (cmpi .sle v (broadcastInDim S8192x1 ![0, 1] bcast_S1x1_S8192x1_0_1
          (broadcastInDim S1x1 ![1] bcast_S1_S1x1_1 (constantI S1 32 31999#32)))))
      (constantI S_ 1 1#1) reducesTo_S8192x1_S8192_d1 h_S_ j = 1#1 := by
  rw [Host.reduce_eq_foldl]
  show List.foldl _ 1#1 _ = 1#1
  refine foldl_andi_one _ _ (fun i _ => ?_)
  show IntOp.andi (IntOp.cmpi .sge (v i) 0#32) (IntOp.cmpi .sle (v i) 31999#32) = 1#1
  have hi := hv i
  rw [(sge_iff_toNat (by omega) (by decide)).2 (Nat.zero_le _),
    (sle_iff_toNat (by omega) (by decide)).2 (show (v i).toNat ≤ (31999#32).toNat from Nat.le_of_lt_succ hi)]
  decide

/-- The row gather read at `(r, h)`: the table at the row the start index names, read signed and clamped
    into the table, and at column `h`. -/
theorem gather_rows_apply {α : Type} (x : S32000x1024.Idx → α) (idx : IVec S8192x1 32) (r : Fin 8192) (h : Fin 1024) :
    Host.gather gather_S32000x1024_S8192x1_S8192x1024_1_0_n_n_0_1_11024 x idx (ix2 r h)
      = x (ix2 (⟨min (idx (ix2 r (0 : Fin 1))).toInt.toNat (32000 - 1), by omega⟩ : Fin 32000) h) := by
  unfold Host.gather
  congr 1
  funext a
  refine Fin.ext ?_
  match a with
  | ⟨0, _⟩ =>
    show gather_S32000x1024_S8192x1_S8192x1024_1_0_n_n_0_1_11024.start (ix2 r h) idx 0
        + gather_S32000x1024_S8192x1_S8192x1024_1_0_n_n_0_1_11024.batchCoord (ix2 r h) 0
        + gather_S32000x1024_S8192x1_S8192x1024_1_0_n_n_0_1_11024.offCoord (ix2 r h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S32000x1024_S8192x1_S8192x1024_1_0_n_n_0_1_11024.startIndexMap from List.mem_singleton.mpr rfl)]
    have hsi : gather_S32000x1024_S8192x1_S8192x1024_1_0_n_n_0_1_11024.siIdx (ix2 r h)
        ⟨List.idxOf (0 : Fin 2) gather_S32000x1024_S8192x1_S8192x1024_1_0_n_n_0_1_11024.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S32000x1024_S8192x1_S8192x1024_1_0_n_n_0_1_11024.start (ix2 r h) idx 1
        + gather_S32000x1024_S8192x1_S8192x1024_1_0_n_n_0_1_11024.batchCoord (ix2 r h) 1
        + gather_S32000x1024_S8192x1_S8192x1024_1_0_n_n_0_1_11024.offCoord (ix2 r h) 1 = h.val
    rw [GatherDims.batchCoord_eq_zero _ _ _ List.not_mem_nil]
    unfold GatherDims.start
    rw [dif_neg (show (1 : Fin 2) ∉ gather_S32000x1024_S8192x1_S8192x1024_1_0_n_n_0_1_11024.startIndexMap from by decide)]
    unfold GatherDims.offCoord
    rw [dif_pos (show (1 : Fin 2) ∈ gather_S32000x1024_S8192x1_S8192x1024_1_0_n_n_0_1_11024.sKept from by decide)]
    simp only [Nat.zero_add]
    rfl

/-- Row `2048·b + t` of the gathered operand is row `ids[b, t]` of the embedding table. -/
theorem x_entry (c : Dev nD) (hid : ∀ i, (m ((c : Thread nD τ).loc main_arg0) i).toNat < 32000)
    (b : Fin 4) (t : Fin 2048) (h : Fin 1024) :
    (V m c main_v2 (ix2 (⟨2048 * b.val + t.val, by have := b.isLt; have := t.isLt; omega⟩ : Fin 8192) h) : EReal)
      = m ((c : Thread nD τ).loc main_arg1)
          (ix2 (⟨(m ((c : Thread nD τ).loc main_arg0) (ix2 b t)).toNat, hid _⟩ : Fin 32000) h) := by
  have hr : 2048 * b.val + t.val < 8192 := by have := b.isLt; have := t.isLt; omega
  -- every flat id is one of the given ids, so a valid row number
  have hflat : ∀ i, (idsFlat m c i).toNat < 32000 := fun i => hid _
  -- the flat id of row `2048·b + t` is `ids[b, t]`
  have hrow : idsFlat m c (ix1 ⟨2048 * b.val + t.val, hr⟩) = m ((c : Thread nD τ).loc main_arg0) (ix2 b t) :=
    flat_apply _ b t hr
  -- not being negative it is not wrapped, so the column of start indices holds the flat ids themselves
  have hcol : ∀ (r : Fin 8192) (u : Fin 1), idsCol m c (ix2 r u) = idsFlat m c (ix1 r) := fun r u => by
    unfold idsCol idsWrapped
    rw [col_apply]
    exact wrap_apply _ _ (hflat _)
  have hcolr : ∀ i, (idsCol m c i).toNat < 32000 := fun i => by
    have e : idsCol m c i = idsFlat m c (ix1 (i 0)) :=
      (congrArg (idsCol m c) (eq_ix2 (n0 := 8192) (n1 := 1) i)).trans (hcol (i 0) (i 1))
    rw [e]; exact hflat _
  -- so every row passes the in-bounds test and the fill is never taken
  have hmask : inBounds m c (ix1 ⟨2048 * b.val + t.val, hr⟩) = 1#1 := inRange_apply _ hcolr _
  have hv : idsCol m c (ix2 (⟨2048 * b.val + t.val, hr⟩ : Fin 8192) (0 : Fin 1))
      = m ((c : Thread nD τ).loc main_arg0) (ix2 b t) := (hcol _ _).trans hrow
  have hw := hid (ix2 b t)
  rw [congrFun (v2_eq m c) _, truncf_apply]
  unfold taken
  rw [select_apply, rows_apply, hmask, select_one, gather_rows_apply]
  -- the start index, a valid row number, reads the same signed and is not moved by the clamp
  refine congrArg (fun k : Fin 32000 => m ((c : Thread nD τ).loc main_arg1) (ix2 k h)) (Fin.ext ?_)
  show min (idsCol m c (ix2 (⟨2048 * b.val + t.val, hr⟩ : Fin 8192) (0 : Fin 1))).toInt.toNat (32000 - 1)
    = (m ((c : Thread nD τ).loc main_arg0) (ix2 b t)).toNat
  rw [hv, StableHlo.Predicate.toInt_eq_toNat_of_lt (by omega), Int.toNat_natCast]
  omega

/-- The projection matrix reaches the kernel entry for entry. -/
theorem w_entry (c : Dev nD) (v : Fin 32000) (h : Fin 1024) :
    (V m c main_v3 (ix2 v h) : EReal) = m ((c : Thread nD τ).loc main_arg2) (ix2 v h) := by
  have e : @Eq (S32000x1024.Idx → EReal) (V m c main_v3)
      (truncf (F := Ideal) (s := S32000x1024) (φ := .f32) .bf16 (m ((c : Thread nD τ).loc main_arg2)) bitsLt_bf16_f32) := by
    dsimp only [Gen.V, Gen.V0]
    simp only [Gen.hostOps0, Gen.hostOps0_1, Gen.hostOps0_2, List.flatten_cons, List.flatten_nil, List.append_nil,
      List.cons_append, List.nil_append]
    after_results <;> rfl
  rw [congrFun e _, truncf_apply]

/-- The bias reaches the kernel as the one row of a `1 × 32000` matrix. -/
theorem b_entry (c : Dev nD) (v : Fin 32000) :
    (V m c main_v4 (ix2 (0 : Fin 1) v) : EReal) = m ((c : Thread nD τ).loc main_arg3) (ix1 v) := by
  have e : @Eq (S1x32000.Idx → EReal) (V m c main_v4)
      (shapeCast S1x32000 (m ((c : Thread nD τ).loc main_arg3) : S32000.Idx → EReal) shapeCasts_S32000_S1x32000) := by
    dsimp only [Gen.V, Gen.V0]
    simp only [Gen.hostOps0, Gen.hostOps0_1, Gen.hostOps0_2, List.flatten_cons, List.flatten_nil, List.append_nil,
      List.cons_append, List.nil_append]
    after_results <;> rfl
  rw [congrFun e _]
  exact shapeCast_a_1a_apply _ _ _ _

end Cert.KernelIdeal.HostPrefix

end
-- ==== Proof.SoftmaxAverage.lean ====
import Mathlib.Analysis.SpecialFunctions.Exp
import Mathlib.Algebra.BigOperators.Fin
import Mathlib.Algebra.BigOperators.Field
import Mathlib.Tactic.Ring
import Mathlib.Tactic.FieldSimp
import Mathlib.Tactic.NormNum

/-! The softmax-weighted average of a finite family, and the two ways it is accumulated:
    in one pass after subtracting a shift, and block by block with the shift changing between blocks. -/

noncomputable section

namespace Cert.Softmax

open scoped BigOperators

/-- The average of `w` under the softmax weights of `z`: `(∑ e^{z v} · w v) / (∑ e^{z v})`. -/
def smavg {ι : Type} [Fintype ι] (z w : ι → ℝ) : ℝ :=
  (∑ v, Real.exp (z v) * w v) / (∑ v, Real.exp (z v))

/-- A row's logits: `x · W v + b v`. -/
def rowLogit {H N : ℕ} (x : Fin H → ℝ) (W : Fin N → Fin H → ℝ) (b : Fin N → ℝ) (v : Fin N) : ℝ :=
  ∑ h, x h * W v h + b v

theorem sum_exp_pos {ι : Type} [Fintype ι] [Nonempty ι] (z : ι → ℝ) : 0 < ∑ v, Real.exp (z v) :=
  Finset.sum_pos (fun _ _ => Real.exp_pos _) Finset.univ_nonempty

/-- Subtracting any shift `μ` from every logit changes neither numerator-over-denominator. -/
theorem smavg_shift {ι : Type} [Fintype ι] [Nonempty ι] (z w : ι → ℝ) (μ : ℝ) :
    (∑ v, Real.exp (z v - μ) * w v) * (1 / ∑ v, Real.exp (z v - μ)) = smavg z w := by
  have hμ : Real.exp (-μ) ≠ 0 := (Real.exp_pos _).ne'
  have hs : (∑ v, Real.exp (z v)) ≠ 0 := (sum_exp_pos z).ne'
  have e1 : ∀ v, Real.exp (z v - μ) = Real.exp (z v) * Real.exp (-μ) := fun v => by
    rw [sub_eq_add_neg, Real.exp_add]
  simp only [e1, smavg]
  rw [← Finset.sum_mul, show (∑ v, Real.exp (z v) * Real.exp (-μ) * w v) = (∑ v, Real.exp (z v) * w v) * Real.exp (-μ) from by
    rw [Finset.sum_mul]; exact Finset.sum_congr rfl fun v _ => by ring]
  field_simp

/-- Normalizing each weight first, as a softmax does, gives the same average. -/
theorem smavg_normalized {ι : Type} [Fintype ι] [Nonempty ι] (z w : ι → ℝ) (M : ℝ) :
    ∑ v, (Real.exp (z v - M) * (1 / ∑ u, Real.exp (z u - M))) * w v = smavg z w := by
  rw [← smavg_shift z w M, Finset.sum_mul]
  exact Finset.sum_congr rfl fun v _ => by ring

/-- Row `j` of block `k` of the 25 blocks of 1280 rows that tile the 32000 rows. -/
def wrow (k : ℕ) (j : Fin 1280) : Fin 32000 := ⟨(1280 * k + j.val) % 32000, Nat.mod_lt _ (by norm_num)⟩

/-- Summing block by block is summing over all rows. -/
theorem sum_wrow (f : Fin 32000 → ℝ) : ∑ k ∈ Finset.range 25, ∑ j : Fin 1280, f (wrow k j) = ∑ v, f v := by
  rw [Finset.sum_range (n := 25) (fun k => ∑ j : Fin 1280, f (wrow k j)), ← Finset.sum_product']
  rw [← Equiv.sum_comp (finProdFinEquiv (m := 25) (n := 1280)) f]
  refine Finset.sum_congr rfl fun p _ => congrArg f (Fin.ext ?_)
  obtain ⟨k, j⟩ := p
  show (1280 * k.val + j.val) % 32000 = j.val + 1280 * k.val
  have := k.isLt; have := j.isLt
  rw [Nat.mod_eq_of_lt (by omega)]; omega

/-- The weighted exponential sum over the first `n` blocks, every logit shifted by `μ`. -/
def partNum (z w : Fin 32000 → ℝ) (μ : ℝ) (n : ℕ) : ℝ :=
  ∑ k ∈ Finset.range n, ∑ j : Fin 1280, Real.exp (z (wrow k j) - μ) * w (wrow k j)

theorem partNum_zero (z w : Fin 32000 → ℝ) (μ : ℝ) : partNum z w μ 0 = 0 := by
  simp [partNum]

/-- The online step: rescale the sum over the blocks so far from the old shift to the new one, add the new block. -/
theorem partNum_succ (z w : Fin 32000 → ℝ) (μ μ' : ℝ) (n : ℕ) :
    Real.exp (μ - μ') * partNum z w μ n + ∑ j : Fin 1280, Real.exp (z (wrow n j) - μ') * w (wrow n j)
      = partNum z w μ' (n + 1) := by
  unfold partNum
  rw [Finset.sum_range_succ, Finset.mul_sum]
  congr 1
  refine Finset.sum_congr rfl fun k _ => ?_
  rw [Finset.mul_sum]
  refine Finset.sum_congr rfl fun j _ => ?_
  rw [← mul_assoc, ← Real.exp_add]
  congr 2; ring

theorem partNum_full (z w : Fin 32000 → ℝ) (μ : ℝ) : partNum z w μ 25 = ∑ v, Real.exp (z v - μ) * w v :=
  sum_wrow fun v => Real.exp (z v - μ) * w v

end Cert.Softmax

end
-- ==== Proof.IdealReal.lean ====
import Idealize.ShloMosaic.PureOps.Ideal
import Mathlib.Data.EReal.Basic
import Mathlib.Data.EReal.Operations

/-! The extended-real operations on finite values: sums, products, maxima, exponentials and the
    reciprocal of real numbers are the real ones, and the bottom element is absorbed by a maximum. -/

noncomputable section

namespace Cert.IdealReal

open Idealize.ShloMosaic
open scoped BigOperators

theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_sum_mul {ι : Type} (s : Finset ι) (f g : ι → ℝ) :
    (∑ i ∈ s, (f i : EReal) * (g i : EReal)) = ((∑ i ∈ s, f i * g i : ℝ) : EReal) := by
  rw [← coe_sum]; exact Finset.sum_congr rfl fun i _ => (EReal.coe_mul _ _).symm

/-- The running maximum from `⊥` over a nonempty finite family of reals is a real. -/
theorem fold_max_coe {ι : Type} (s : Finset ι) (hs : s.Nonempty) (f : ι → ℝ) :
    ∃ r : ℝ, s.fold max (⊥ : EReal) (fun k => (f k : EReal)) = (r : EReal) := by
  classical
  induction s using Finset.induction_on with
  | empty => exact absurd hs (by simp)
  | insert a s ha ih =>
    rw [Finset.fold_insert ha]
    by_cases hne : s.Nonempty
    · obtain ⟨r, hr⟩ := ih hne
      exact ⟨max (f a) r, by rw [hr]; exact (EReal.coe_strictMono.monotone.map_max).symm⟩
    · rw [Finset.not_nonempty_iff_eq_empty.mp hne, Finset.fold_empty]
      exact ⟨f a, max_eq_left bot_le⟩

theorem max_coe (a b : ℝ) : max (a : EReal) (b : EReal) = ((max a b : ℝ) : EReal) :=
  (EReal.coe_strictMono.monotone.map_max).symm

theorem exp_sub_coe (a b : ℝ) : Ideal.exp ((a : EReal) - (b : EReal)) = ((Real.exp (a - b) : ℝ) : EReal) := by
  rw [← EReal.coe_sub]; rfl

theorem exp_bot_sub_coe (b : ℝ) : Ideal.exp ((⊥ : EReal) - (b : EReal)) = 0 := by
  rw [EReal.bot_sub]; rfl

theorem div_one_coe {l : ℝ} (hl : l ≠ 0) : Ideal.div 1 (l : EReal) = ((1 / l : ℝ) : EReal) := by
  rw [Ideal.div_coe hl, one_mul]

theorem div_coe_coe (e : ℝ) {l : ℝ} (hl : l ≠ 0) : Ideal.div (e : EReal) (l : EReal) = ((e * (1 / l) : ℝ) : EReal) := by
  rw [Ideal.div_coe hl, ← EReal.coe_mul]

end Cert.IdealReal

end
-- ==== Proof.RefValue.lean ====
import proofs.«419553_j24120536334837_2_alg».proof.Proof.Gen.ReferenceIdeal.Read
import proofs.«419553_j24120536334837_2_alg».proof.Proof.SoftmaxAverage
import proofs.«419553_j24120536334837_2_alg».proof.Proof.IdealReal
import Idealize.ShloMosaic.Lib.Pipeline.Value
import Idealize.ShloMosaic.Lib.ValueIdx
import Idealize.ShloMosaic.Lib.StableHlo.Predicate
import Idealize.ShloMosaic.PureOps.Ideal.Laws

/-! The reference's result, entry by entry, when its inputs are real numbers and every token id is a valid row:
    the softmax-weighted average of the projection matrix's column `h` under the logits of the row's embedding. -/

noncomputable section

namespace Cert.ReferenceIdeal.RefValue

open Idealize.ShloMosaic Idealize.ShloMosaic.ValueIdx
open Cert.ReferenceIdeal Cert.ReferenceIdeal.Gen Cert.ReferenceIdeal.Read

/-- A valid token id is non-negative as a signed word, so the wrapped index is the id itself. -/
private theorem start_entry (ids : IVec S4x2048 32) (hid : ∀ i, (ids i).toNat < 32000) (b : Fin 4) (t : Fin 2048) :
    val_main_v5 (F := Ideal) ids (ix3 b t (0 : Fin 1)) = ids (ix2 b t) := by
  rw [val_main_v5_apply]
  have e : idx_main_v5 (ix3 b t (0 : Fin 1)) = ix2 b t := by
    funext a; match a with | ⟨0, _⟩ => rfl | ⟨1, _⟩ => rfl
  rw [e, val_main_v4_apply, val_main_v1_apply, val_main_v0_apply, val_main_c_apply]
  have hlt : ¬ IntOp.cmpi .slt (ids (ix2 b t)) 0#32 = 1#1 := by
    rw [StableHlo.Predicate.slt_iff_toNat (by have := hid (ix2 b t); omega) (by decide)]
    simp
  rw [eq_zero_of_ne_one hlt, select_zero]

/-- The embedding lookup at a valid token id reads that row of the table. -/
private theorem gather_entry (ids : IVec S4x2048 32) (x1 : FVec Ideal S32000x1024 .f32)
    (hid : ∀ i, (ids i).toNat < 32000) (b : Fin 4) (t : Fin 2048) (k : Fin 1024) :
    val_main_v6 (F := Ideal) ids x1 (ix3 b t k) = x1 (ix2 ⟨(ids (ix2 b t)).toNat, hid _⟩ k) := by
  unfold val_main_v6 Host.gather
  congr 1
  funext a
  refine Fin.ext ?_
  match a with
  | ⟨0, _⟩ =>
    show gather_S32000x1024_S4x2048x1_S4x2048x1024_2_0_n_n_0_2_11024.start (ix3 b t k) (val_main_v5 (F := Ideal) ids) 0
      + gather_S32000x1024_S4x2048x1_S4x2048x1024_2_0_n_n_0_2_11024.batchCoord (ix3 b t k) 0
      + gather_S32000x1024_S4x2048x1_S4x2048x1024_2_0_n_n_0_2_11024.offCoord (ix3 b t k) 0 = (ids (ix2 b t)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S32000x1024.rank) ∈ gather_S32000x1024_S4x2048x1_S4x2048x1024_2_0_n_n_0_2_11024.startIndexMap from List.mem_singleton.mpr rfl)]
    have hsi : gather_S32000x1024_S4x2048x1_S4x2048x1024_2_0_n_n_0_2_11024.siIdx (ix3 b t k)
        ⟨List.idxOf (0 : Fin S32000x1024.rank) gather_S32000x1024_S4x2048x1_S4x2048x1024_2_0_n_n_0_2_11024.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi, start_entry ids hid b t]
    have hlt := hid (ix2 b t)
    rw [StableHlo.Predicate.toInt_eq_toNat_of_lt (by omega), Int.toNat_natCast]
    show min (ids (ix2 b t)).toNat (32000 - 1) = _
    omega
  | ⟨1, _⟩ =>
    show gather_S32000x1024_S4x2048x1_S4x2048x1024_2_0_n_n_0_2_11024.start (ix3 b t k) (val_main_v5 (F := Ideal) ids) 1
      + gather_S32000x1024_S4x2048x1_S4x2048x1024_2_0_n_n_0_2_11024.batchCoord (ix3 b t k) 1
      + gather_S32000x1024_S4x2048x1_S4x2048x1024_2_0_n_n_0_2_11024.offCoord (ix3 b t k) 1 = k.val
    rw [GatherDims.batchCoord_eq_zero _ _ _ List.not_mem_nil]
    unfold GatherDims.start
    rw [dif_neg (show ¬ (1 : Fin S32000x1024.rank) ∈ gather_S32000x1024_S4x2048x1_S4x2048x1024_2_0_n_n_0_2_11024.startIndexMap by decide)]
    unfold GatherDims.offCoord
    rw [dif_pos (show (1 : Fin S32000x1024.rank) ∈ gather_S32000x1024_S4x2048x1_S4x2048x1024_2_0_n_n_0_2_11024.sKept by decide)]
    simp only [Nat.zero_add]
    rfl

/-- A logit: the embedding row against row `v` of the projection matrix, plus the bias. -/
private theorem logit_entry (ids : IVec S4x2048 32) (x1 x2 : FVec Ideal S32000x1024 .f32) (x3 : FVec Ideal S32000 .f32)
    (E Wr : Fin 32000 → Fin 1024 → ℝ) (br : Fin 32000 → ℝ)
    (h1 : ∀ v h, x1 (ix2 v h) = (E v h : EReal)) (h2 : ∀ v h, x2 (ix2 v h) = (Wr v h : EReal))
    (h3 : ∀ v, x3 (ix1 v) = (br v : EReal)) (hid : ∀ i, (ids i).toNat < 32000)
    (b : Fin 4) (t : Fin 2048) (v : Fin 32000) :
    val_main_v10 (F := Ideal) ids x1 x2 x3 (ix3 b t v)
      = ((Cert.Softmax.rowLogit (E ⟨(ids (ix2 b t)).toNat, hid _⟩) Wr br v : ℝ) : EReal) := by
  rw [val_main_v10_apply, val_main_v7_apply, val_main_v9_apply, val_main_v8_apply]
  have el : ∀ k : Fin 1024, lidx_main_v7 (ix3 b t v) k = ix3 b t k := fun k => by
    funext a; match a with | ⟨0, _⟩ => rfl | ⟨1, _⟩ => rfl | ⟨2, _⟩ => rfl
  have er : ∀ k : Fin 1024, ridx_main_v7 (ix3 b t v) k = ix2 v k := fun k => by
    funext a; match a with | ⟨0, _⟩ => rfl | ⟨1, _⟩ => rfl
  have eb : idx_main_v8 (idx_main_v9 (ix3 b t v)) = ix1 v := by
    funext a; match a with | ⟨0, _⟩ => rfl
  simp only [el, er, eb, gather_entry ids x1 hid, h1, h2, h3]
  show (∑ k : Fin 1024, (E ⟨(ids (ix2 b t)).toNat, hid _⟩ k : EReal) * (Wr v k : EReal)) + (br v : EReal) = _
  rw [Cert.IdealReal.coe_sum_mul, ← EReal.coe_add]
  rfl

/-- The row's index with a vocabulary coordinate put back on the reduced axis. -/
private theorem lift_entry (hr : S4x2048x32000.Reduces [2] S4x2048) (b : Fin 4) (t : Fin 2048)
    (k : Fin (S4x2048x32000.size 2)) : hr.lift (ix2 b t) k = ix3 b t (⟨k.val, k.isLt⟩ : Fin 32000) := by
  funext c; apply Fin.ext
  fin_cases c <;> rfl

/-- The row's maximum logit is a real number. -/
private theorem max_entry (ids : IVec S4x2048 32) (x1 x2 : FVec Ideal S32000x1024 .f32) (x3 : FVec Ideal S32000 .f32)
    (E Wr : Fin 32000 → Fin 1024 → ℝ) (br : Fin 32000 → ℝ)
    (h1 : ∀ v h, x1 (ix2 v h) = (E v h : EReal)) (h2 : ∀ v h, x2 (ix2 v h) = (Wr v h : EReal))
    (h3 : ∀ v, x3 (ix1 v) = (br v : EReal)) (hid : ∀ i, (ids i).toNat < 32000)
    (b : Fin 4) (t : Fin 2048) :
    ∃ M : ℝ, val_main_v13 (F := Ideal) ids x1 x2 x3 (ix2 b t) = (M : EReal) := by
  have hr : S4x2048x32000.Reduces [2] S4x2048 := by decide
  rw [val_main_v13_apply, val_main_v12_apply, val_main_cst_1_apply]
  unfold val_main_v11
  rw [Host.reduce_eq_fold_single FloatOps.maximumf _ _ reducesTo_S4x2048x32000_S4x2048_d2 hr h_S_, val_main_cst_apply]
  have hf : (val_main_v10 (F := Ideal) ids x1 x2 x3 ∘ hr.lift (ix2 b t))
      = fun k : Fin 32000 => ((Cert.Softmax.rowLogit (E ⟨(ids (ix2 b t)).toNat, hid _⟩) Wr br k : ℝ) : EReal) :=
    funext fun k => by
      show val_main_v10 (F := Ideal) ids x1 x2 x3 (hr.lift (ix2 b t) k) = _
      rw [lift_entry hr b t k]
      exact logit_entry ids x1 x2 x3 E Wr br h1 h2 h3 hid b t _
  have hbot : (FloatOps.ofBits (F := Ideal) .f32 0xFF800000#32 : Ideal .f32) = (⊥ : EReal) := by
    show Ideal.ofBits .f32 0xFF800000#32 = ⊥
    simp [Ideal.ofBits, Ideal.ieee]
  obtain ⟨M, hM⟩ := Cert.IdealReal.fold_max_coe (Finset.univ : Finset (Fin 32000)) ⟨⟨0, by norm_num⟩, Finset.mem_univ _⟩
    (fun k => Cert.Softmax.rowLogit (E ⟨(ids (ix2 b t)).toNat, hid _⟩) Wr br k)
  refine ⟨M, ?_⟩
  rw [hf, hbot]
  show max (⊥ : EReal) (Finset.fold max (⊥ : EReal)
    (fun k : Fin 32000 => ((Cert.Softmax.rowLogit (E ⟨(ids (ix2 b t)).toNat, hid _⟩) Wr br k : ℝ) : EReal)) Finset.univ) = (M : EReal)
  rw [hM]
  exact max_eq_right bot_le

/-- A shifted exponential: the logit minus the row's maximum, exponentiated. -/
private theorem exp_entry (ids : IVec S4x2048 32) (x1 x2 : FVec Ideal S32000x1024 .f32) (x3 : FVec Ideal S32000 .f32)
    (E Wr : Fin 32000 → Fin 1024 → ℝ) (br : Fin 32000 → ℝ)
    (h1 : ∀ v h, x1 (ix2 v h) = (E v h : EReal)) (h2 : ∀ v h, x2 (ix2 v h) = (Wr v h : EReal))
    (h3 : ∀ v, x3 (ix1 v) = (br v : EReal)) (hid : ∀ i, (ids i).toNat < 32000)
    (b : Fin 4) (t : Fin 2048) (M : ℝ) (hM : val_main_v13 (F := Ideal) ids x1 x2 x3 (ix2 b t) = (M : EReal)) (v : Fin 32000) :
    val_main_v17 (F := Ideal) ids x1 x2 x3 (ix3 b t v)
      = ((Real.exp (Cert.Softmax.rowLogit (E ⟨(ids (ix2 b t)).toNat, hid _⟩) Wr br v - M) : ℝ) : EReal) := by
  rw [val_main_v17_apply, val_main_v16_apply, val_main_v15_apply, val_main_v14_apply]
  have e : idx_main_v14 (idx_main_v15 (ix3 b t v)) = ix2 b t := by
    funext a; match a with | ⟨0, _⟩ => rfl | ⟨1, _⟩ => rfl
  rw [e, hM, logit_entry ids x1 x2 x3 E Wr br h1 h2 h3 hid b t v]
  exact Cert.IdealReal.exp_sub_coe _ _

/-- The row's sum of shifted exponentials. -/
private theorem sum_entry (ids : IVec S4x2048 32) (x1 x2 : FVec Ideal S32000x1024 .f32) (x3 : FVec Ideal S32000 .f32)
    (E Wr : Fin 32000 → Fin 1024 → ℝ) (br : Fin 32000 → ℝ)
    (h1 : ∀ v h, x1 (ix2 v h) = (E v h : EReal)) (h2 : ∀ v h, x2 (ix2 v h) = (Wr v h : EReal))
    (h3 : ∀ v, x3 (ix1 v) = (br v : EReal)) (hid : ∀ i, (ids i).toNat < 32000)
    (b : Fin 4) (t : Fin 2048) (M : ℝ) (hM : val_main_v13 (F := Ideal) ids x1 x2 x3 (ix2 b t) = (M : EReal)) :
    val_main_v18 (F := Ideal) ids x1 x2 x3 (ix2 b t)
      = ((∑ u : Fin 32000, Real.exp (Cert.Softmax.rowLogit (E ⟨(ids (ix2 b t)).toNat, hid _⟩) Wr br u - M) : ℝ) : EReal) := by
  rw [val_main_v18_apply, val_main_cst_2_apply]
  have e : ∀ k : Fin 32000, idx_main_v18 (ix2 b t) k = ix3 b t k := fun k => by
    funext a; match a with | ⟨0, _⟩ => rfl | ⟨1, _⟩ => rfl | ⟨2, _⟩ => rfl
  simp only [e, exp_entry ids x1 x2 x3 E Wr br h1 h2 h3 hid b t M hM]
  show Ideal.ofBits .f32 0x00000000#32 + _ = _
  rw [Ideal.ofBits_zero_f32, zero_add, Cert.IdealReal.coe_sum]

/-- A softmax weight: the shifted exponential over the row's sum. -/
private theorem prob_entry (ids : IVec S4x2048 32) (x1 x2 : FVec Ideal S32000x1024 .f32) (x3 : FVec Ideal S32000 .f32)
    (E Wr : Fin 32000 → Fin 1024 → ℝ) (br : Fin 32000 → ℝ)
    (h1 : ∀ v h, x1 (ix2 v h) = (E v h : EReal)) (h2 : ∀ v h, x2 (ix2 v h) = (Wr v h : EReal))
    (h3 : ∀ v, x3 (ix1 v) = (br v : EReal)) (hid : ∀ i, (ids i).toNat < 32000)
    (b : Fin 4) (t : Fin 2048) (M : ℝ) (hM : val_main_v13 (F := Ideal) ids x1 x2 x3 (ix2 b t) = (M : EReal)) (v : Fin 32000) :
    val_main_v21 (F := Ideal) ids x1 x2 x3 (ix3 b t v)
      = ((Real.exp (Cert.Softmax.rowLogit (E ⟨(ids (ix2 b t)).toNat, hid _⟩) Wr br v - M)
          * (1 / ∑ u : Fin 32000, Real.exp (Cert.Softmax.rowLogit (E ⟨(ids (ix2 b t)).toNat, hid _⟩) Wr br u - M)) : ℝ) : EReal) := by
  rw [val_main_v21_apply, val_main_v20_apply, val_main_v19_apply]
  have e : idx_main_v19 (idx_main_v20 (ix3 b t v)) = ix2 b t := by
    funext a; match a with | ⟨0, _⟩ => rfl | ⟨1, _⟩ => rfl
  rw [e, exp_entry ids x1 x2 x3 E Wr br h1 h2 h3 hid b t M hM v, sum_entry ids x1 x2 x3 E Wr br h1 h2 h3 hid b t M hM]
  haveI : Nonempty (Fin 32000) := ⟨⟨0, by norm_num⟩⟩
  exact Cert.IdealReal.div_coe_coe _
    (Cert.Softmax.sum_exp_pos fun u => Cert.Softmax.rowLogit (E ⟨(ids (ix2 b t)).toNat, hid _⟩) Wr br u - M).ne'

theorem entry (ids : IVec S4x2048 32) (x1 x2 : FVec Ideal S32000x1024 .f32) (x3 : FVec Ideal S32000 .f32)
    (E Wr : Fin 32000 → Fin 1024 → ℝ) (br : Fin 32000 → ℝ)
    (h1 : ∀ v h, x1 (ix2 v h) = (E v h : EReal)) (h2 : ∀ v h, x2 (ix2 v h) = (Wr v h : EReal))
    (h3 : ∀ v, x3 (ix1 v) = (br v : EReal)) (hid : ∀ i, (ids i).toNat < 32000)
    (b : Fin 4) (t : Fin 2048) (h : Fin 1024) :
    val_main_v22 (F := Ideal) ids x1 x2 x3 (ix3 b t h)
      = ((Cert.Softmax.smavg (Cert.Softmax.rowLogit (E ⟨(ids (ix2 b t)).toNat, hid _⟩) Wr br) (fun v => Wr v h) : ℝ) : EReal) := by
  obtain ⟨M, hM⟩ := max_entry ids x1 x2 x3 E Wr br h1 h2 h3 hid b t
  rw [val_main_v22_apply]
  have el : ∀ k : Fin 32000, lidx_main_v22 (ix3 b t h) k = ix3 b t k := fun k => by
    funext a; match a with | ⟨0, _⟩ => rfl | ⟨1, _⟩ => rfl | ⟨2, _⟩ => rfl
  have er : ∀ k : Fin 32000, ridx_main_v22 (ix3 b t h) k = ix2 k h := fun k => by
    funext a; match a with | ⟨0, _⟩ => rfl | ⟨1, _⟩ => rfl
  simp only [el, er, prob_entry ids x1 x2 x3 E Wr br h1 h2 h3 hid b t M hM, h2]
  haveI : Nonempty (Fin 32000) := ⟨⟨0, by norm_num⟩⟩
  rw [Cert.IdealReal.coe_sum_mul, Cert.Softmax.smavg_normalized]

end Cert.ReferenceIdeal.RefValue

end
-- ==== Proof.Pieces.lean ====
import proofs.«419553_j24120536334837_2_alg».proof.Proof.Gen.KernelIdeal.Frame
import Idealize.ShloMosaic.Lib.Pipeline.Value
import Idealize.ShloMosaic.Lib.Tactic

/-! What one grid point leaves in the three carried buffers (the accumulator, the running maximum and the
    running sum, the last two kept as 128 equal lanes) and, at a row block's last point, in the output block:
    each is one whole-buffer store, so it is that store's value as a function of the point's three input
    blocks and of what the point before left. At a row block's first point the three buffers are first
    reset (zeros, −∞, zeros) and the body then reads the reset values back. -/

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Lane 0 of a 128-lane buffer, as a column. -/
abbrev col0 (xs : Vec F S1024x128 .f32) : Vec F S1024x1 .f32 :=
  View.ld xs (Rect.unit ![0, 0] ![1024, 1] inb_S1024x128_S1024x1_0_0)

variable (c : Dev nD) (i : grid0.Coords)
  (arg2 : Memref sig .tc .vmem S1024x1024 .bf16) (harg2 : arg2.IsWhole)
  (arg3 : Memref sig .tc .vmem S1280x1024 .bf16) (harg3 : arg3.IsWhole)
  (arg4 : Memref sig .tc .vmem S1x1280 .f32) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x128 .f32) (harg7 : arg7.IsWhole)
  (arg8 : Memref sig .tc .vmem S1024x128 .f32) (harg8 : arg8.IsWhole)
  (x0 : Vec F S1024x1024 .bf16) (x1 : Vec F S1280x1024 .bf16) (x2 : Vec F S1x1280 .f32)
  (xs0 : Vec F S1024x1024 .f32) (xs1 xs2 : Vec F S1024x128 .f32)

/-- Reading lane 0 back from a 128-lane buffer that one whole store has just filled with `w` reads `w`'s lane 0. -/
theorem readCov_col0 (v : View sig .tc .vmem S1024x128 .f32) (w : Vec F S1024x128 .f32) :
    v.readCov [(⟨Rect.unit ![0, 0] S1024x128.size inb_S1024x128_S1024x128_0_0, w⟩ : View.Piece (Elt F) S1024x128 .f32)]
        (Rect.unit (s := S1024x128) ![0, 0] S1024x1.size inb_S1024x128_S1024x1_0_0).toLoadRect = col0 w := by
  rw [View.readCov_eq_canon_ld _ _ _ (fun y => ⟨_, List.mem_singleton_self _, by
    rw [Rect.mem_set_unit]; intro a
    match a with
    | ⟨0, _⟩ => exact ⟨Nat.zero_le _, by have h : (y 0).val < 1024 := (y 0).isLt; show (y 0).val < 0 + 1024; omega⟩
    | ⟨1, _⟩ => exact ⟨Nat.zero_le _, by have h : (y 1).val < 128 := (y 1).isLt; show (y 1).val < 0 + 128; omega⟩⟩),
    View.canon_unit_zero hz]

/-! ## A middle point of a row block: the three buffers are read, then overwritten whole -/

theorem acc_B (hc0 : ¬cond0_0 i) (hc1 : ¬cond0_1 i) :
    sout0_B_0 c i arg2 harg2 arg3 harg3 arg4 harg4 arg5 harg5 arg6 harg6 arg7 harg7 arg8 harg8 hc0 hc1 x0 x1 x2 xs0 xs1 xs2 = k0_pay13 x0 x1 x2 (col0 xs1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

theorem max_B (hc0 : ¬cond0_0 i) (hc1 : ¬cond0_1 i) :
    sout0_B_1 c i arg2 harg2 arg3 harg3 arg4 harg4 arg5 harg5 arg6 harg6 arg7 harg7 arg8 harg8 hc0 hc1 x0 x1 x2 xs0 xs1 xs2 = k0_pay1 (k0_pay14 x0 x1 x2 (col0 xs1)) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

theorem sum_B (hc0 : ¬cond0_0 i) (hc1 : ¬cond0_1 i) :
    sout0_B_2 c i arg2 harg2 arg3 harg3 arg4 harg4 arg5 harg5 arg6 harg6 arg7 harg7 arg8 harg8 hc0 hc1 x0 x1 x2 xs0 xs1 xs2 = k0_pay2 (k0_pay12 x0 x1 x2 (col0 xs1) (col0 xs2)) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

/-! ## The last point of a row block: the same, and then the output block from the NEW sum and accumulator -/

theorem acc_C (hc0 : ¬cond0_0 i) (hc1 : cond0_1 i) :
    sout0_C_0 c i arg2 harg2 arg3 harg3 arg4 harg4 arg5 harg5 arg6 harg6 arg7 harg7 arg8 harg8 hc0 hc1 x0 x1 x2 xs0 xs1 xs2 = k0_pay13 x0 x1 x2 (col0 xs1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

theorem max_C (hc0 : ¬cond0_0 i) (hc1 : cond0_1 i) :
    sout0_C_1 c i arg2 harg2 arg3 harg3 arg4 harg4 arg5 harg5 arg6 harg6 arg7 harg7 arg8 harg8 hc0 hc1 x0 x1 x2 xs0 xs1 xs2 = k0_pay1 (k0_pay14 x0 x1 x2 (col0 xs1)) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

theorem sum_C (hc0 : ¬cond0_0 i) (hc1 : cond0_1 i) :
    sout0_C_2 c i arg2 harg2 arg3 harg3 arg4 harg4 arg5 harg5 arg6 harg6 arg7 harg7 arg8 harg8 hc0 hc1 x0 x1 x2 xs0 xs1 xs2 = k0_pay2 (k0_pay12 x0 x1 x2 (col0 xs1) (col0 xs2)) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

theorem out_C (hc0 : ¬cond0_0 i) (hc1 : cond0_1 i) :
    out0_C_3 c i arg2 harg2 arg3 harg3 arg4 harg4 arg5 harg5 arg6 harg6 arg7 harg7 arg8 harg8 hc0 hc1 x0 x1 x2 xs0 xs1 xs2
      = k0_pay3 (col0 (k0_pay2 (k0_pay12 x0 x1 x2 (col0 xs1) (col0 xs2)))) (k0_pay13 x0 x1 x2 (col0 xs1) xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz, readCov_col0, View.readCov_unit_zero (S := S1024x1024) _ hz]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

/-! ## The first point of a row block: the buffers are reset, and the body reads the reset values -/

theorem acc_A (hc0 : cond0_0 i) (hc1 : ¬cond0_1 i) :
    sout0_A_0 c i arg2 harg2 arg3 harg3 arg4 harg4 arg5 harg5 arg6 harg6 arg7 harg7 arg8 harg8 hc0 hc1 x0 x1 x2 = k0_pay13 x0 x1 x2 (col0 (k0_pay5 (F := F))) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1024) hz, readCov_col0, View.readCov_unit_zero (S := S1024x1024) _ hz]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

theorem max_A (hc0 : cond0_0 i) (hc1 : ¬cond0_1 i) :
    sout0_A_1 c i arg2 harg2 arg3 harg3 arg4 harg4 arg5 harg5 arg6 harg6 arg7 harg7 arg8 harg8 hc0 hc1 x0 x1 x2 = k0_pay1 (k0_pay14 x0 x1 x2 (col0 (k0_pay5 (F := F)))) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x128) hz, readCov_col0]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

theorem sum_A (hc0 : cond0_0 i) (hc1 : ¬cond0_1 i) :
    sout0_A_2 c i arg2 harg2 arg3 harg3 arg4 harg4 arg5 harg5 arg6 harg6 arg7 harg7 arg8 harg8 hc0 hc1 x0 x1 x2 = k0_pay2 (k0_pay12 x0 x1 x2 (col0 (k0_pay5 (F := F))) (col0 (k0_pay6 (F := F)))) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x128) hz, readCov_col0, readCov_col0]
  simp only [View.readAt_eq_ld, harg2.read_unread, harg3.read_unread, harg4.read_unread, harg6.read_unread,
    harg7.read_unread, harg8.read_unread, View.ld_unit_zero (S := S1024x1024) hz, View.ld_unit_zero (S := S1280x1024) hz,
    View.ld_unit_zero (S := S1x1280) hz]

end Cert.KernelIdeal.Pieces

end
-- ==== Proof.BlockStep.lean ====
import proofs.«419553_j24120536334837_2_alg».proof.Proof.Gen.KernelIdeal.Skeleton
import proofs.«419553_j24120536334837_2_alg».proof.Proof.SoftmaxAverage
import proofs.«419553_j24120536334837_2_alg».proof.Proof.IdealReal
import proofs.«419553_j24120536334837_2_alg».proof.Proof.LibColumns
import Idealize.ShloMosaic.PureOps.Ideal.Laws
import Idealize.ShloMosaic.Lib.ValueIdx
import Idealize.ShloMosaic.Lib.ValueLayout
import Idealize.ShloMosaic.Lib.Pipeline.Value

/-! One block of 1280 vocabulary rows, for the 1024 rows of a row block, over the extended reals with real inputs.
    With the row's logits `z j = x · W j + b j` over the block, the old running maximum `m`, the new one
    `μ' = max m (max_j z j)` and the scale `σ = e^{m − μ'}` (zero when `m = −∞`), the body computes
    `σ · l + ∑_j e^{z j − μ'}` for the running sum and `σ · acc + ∑_j e^{z j − μ'} · W j` for the accumulator, and at a
    row block's last point `acc · (1 / l)`. Every entry is read at explicit coordinates. -/

noncomputable section

namespace Cert.KernelIdeal.BlockStep

open Idealize.ShloMosaic Idealize.ShloMosaic.ValueIdx
open Cert.KernelIdeal Cert.KernelIdeal.Gen Cert.Softmax Cert.IdealReal Cert.Lib.Columns

/-! ## The two matrix products at an entry -/

theorem lhs_logit_0 (i : S1024x1280.Idx) (q : dot_S1024x1024_S1280x1024_S1024x1280_1_1_0_0_n_n.contr.Idx) :
    (dot_S1024x1024_S1280x1024_S1024x1280_1_1_0_0_n_n.lhsIdx i q 0).val = (i 0).val := by
  unfold DotDims.lhsIdx
  rw [dif_neg (show ¬(0 : Fin S1024x1024.rank) ∈ dot_S1024x1024_S1280x1024_S1024x1280_1_1_0_0_n_n.lhsBatch by decide), dif_pos (show (0 : Fin S1024x1024.rank) ∈ dot_S1024x1024_S1280x1024_S1024x1280_1_1_0_0_n_n.lhsNonContracting by decide)]
  rfl
theorem lhs_logit_1 (i : S1024x1280.Idx) (q : dot_S1024x1024_S1280x1024_S1024x1280_1_1_0_0_n_n.contr.Idx) :
    (dot_S1024x1024_S1280x1024_S1024x1280_1_1_0_0_n_n.lhsIdx i q 1).val = (q ⟨0, by decide⟩).val :=
  dot_S1024x1024_S1280x1024_S1024x1280_1_1_0_0_n_n.lhsIdx_val_of_single rfl i q
theorem rhs_logit_0 (i : S1024x1280.Idx) (q : dot_S1024x1024_S1280x1024_S1024x1280_1_1_0_0_n_n.contr.Idx) :
    (dot_S1024x1024_S1280x1024_S1024x1280_1_1_0_0_n_n.rhsIdx i q 0).val = (i 1).val := by
  unfold DotDims.rhsIdx
  rw [dif_neg (show ¬(0 : Fin S1280x1024.rank) ∈ dot_S1024x1024_S1280x1024_S1024x1280_1_1_0_0_n_n.rhsBatch by decide), dif_pos (show (0 : Fin S1280x1024.rank) ∈ dot_S1024x1024_S1280x1024_S1024x1280_1_1_0_0_n_n.rhsNonContracting by decide)]
  rfl
theorem rhs_logit_1 (i : S1024x1280.Idx) (q : dot_S1024x1024_S1280x1024_S1024x1280_1_1_0_0_n_n.contr.Idx) :
    (dot_S1024x1024_S1280x1024_S1024x1280_1_1_0_0_n_n.rhsIdx i q 1).val = (q ⟨0, by decide⟩).val :=
  dot_S1024x1024_S1280x1024_S1024x1280_1_1_0_0_n_n.rhsIdx_val_of_single rfl i q

/-- The logits' product: entry `(p, j)` is row `p` of the left operand against row `j` of the right one. -/
theorem logit_matmul_apply (a : FVec Ideal S1024x1024 .bf16) (w : FVec Ideal S1280x1024 .bf16) (p : Fin 1024) (j : Fin 1280) :
    matmul dot_S1024x1024_S1280x1024_S1024x1280_1_1_0_0_n_n none a w (constant S1024x1280 .f32 0x00000000#32) (ix2 p j)
      = ∑ k : Fin 1024, a (ix2 p k) * w (ix2 j k) := by
  show FloatOps.matmul dot_S1024x1024_S1280x1024_S1024x1280_1_1_0_0_n_n none a w (constant S1024x1280 .f32 0x00000000#32) (ix2 p j) = _
  rw [Ideal.matmul_constant_zero_apply, ← Equiv.sum_comp (contrEquiv1 dot_S1024x1024_S1280x1024_S1024x1280_1_1_0_0_n_n 1024 rfl rfl).symm]
  refine Finset.sum_congr rfl fun k _ => ?_
  have hk := contrEquiv1_symm_val dot_S1024x1024_S1280x1024_S1024x1280_1_1_0_0_n_n 1024 rfl rfl k
  have el : dot_S1024x1024_S1280x1024_S1024x1280_1_1_0_0_n_n.lhsIdx (ix2 p j) ((contrEquiv1 dot_S1024x1024_S1280x1024_S1024x1280_1_1_0_0_n_n 1024 rfl rfl).symm k) = ix2 p k := funext fun ax => Fin.ext (by
    match ax with
    | ⟨0, _⟩ => exact lhs_logit_0 _ _
    | ⟨1, _⟩ => exact (lhs_logit_1 _ _).trans hk)
  have er : dot_S1024x1024_S1280x1024_S1024x1280_1_1_0_0_n_n.rhsIdx (ix2 p j) ((contrEquiv1 dot_S1024x1024_S1280x1024_S1024x1280_1_1_0_0_n_n 1024 rfl rfl).symm k) = ix2 j k := funext fun ax => Fin.ext (by
    match ax with
    | ⟨0, _⟩ => exact rhs_logit_0 _ _
    | ⟨1, _⟩ => exact (rhs_logit_1 _ _).trans hk)
  rw [el, er]

theorem lhs_acc_0 (i : S1024x1024.Idx) (q : dot_S1024x1280_S1280x1024_S1024x1024_1_0_0_1_n_n.contr.Idx) :
    (dot_S1024x1280_S1280x1024_S1024x1024_1_0_0_1_n_n.lhsIdx i q 0).val = (i 0).val := by
  unfold DotDims.lhsIdx
  rw [dif_neg (show ¬(0 : Fin S1024x1280.rank) ∈ dot_S1024x1280_S1280x1024_S1024x1024_1_0_0_1_n_n.lhsBatch by decide), dif_pos (show (0 : Fin S1024x1280.rank) ∈ dot_S1024x1280_S1280x1024_S1024x1024_1_0_0_1_n_n.lhsNonContracting by decide)]
  rfl
theorem lhs_acc_1 (i : S1024x1024.Idx) (q : dot_S1024x1280_S1280x1024_S1024x1024_1_0_0_1_n_n.contr.Idx) :
    (dot_S1024x1280_S1280x1024_S1024x1024_1_0_0_1_n_n.lhsIdx i q 1).val = (q ⟨0, by decide⟩).val :=
  dot_S1024x1280_S1280x1024_S1024x1024_1_0_0_1_n_n.lhsIdx_val_of_single rfl i q
theorem rhs_acc_0 (i : S1024x1024.Idx) (q : dot_S1024x1280_S1280x1024_S1024x1024_1_0_0_1_n_n.contr.Idx) :
    (dot_S1024x1280_S1280x1024_S1024x1024_1_0_0_1_n_n.rhsIdx i q 0).val = (q ⟨0, by decide⟩).val :=
  dot_S1024x1280_S1280x1024_S1024x1024_1_0_0_1_n_n.rhsIdx_val_of_single rfl i q
theorem rhs_acc_1 (i : S1024x1024.Idx) (q : dot_S1024x1280_S1280x1024_S1024x1024_1_0_0_1_n_n.contr.Idx) :
    (dot_S1024x1280_S1280x1024_S1024x1024_1_0_0_1_n_n.rhsIdx i q 1).val = (i 1).val := by
  unfold DotDims.rhsIdx
  rw [dif_neg (show ¬(1 : Fin S1280x1024.rank) ∈ dot_S1024x1280_S1280x1024_S1024x1024_1_0_0_1_n_n.rhsBatch by decide), dif_pos (show (1 : Fin S1280x1024.rank) ∈ dot_S1024x1280_S1280x1024_S1024x1024_1_0_0_1_n_n.rhsNonContracting by decide)]
  rfl

/-- The accumulator's product: entry `(p, h)` is row `p` of the weights against column `h` of the block. -/
theorem acc_matmul_apply (a : FVec Ideal S1024x1280 .bf16) (w : FVec Ideal S1280x1024 .bf16) (p : Fin 1024) (h : Fin 1024) :
    matmul dot_S1024x1280_S1280x1024_S1024x1024_1_0_0_1_n_n none a w (constant S1024x1024 .f32 0x00000000#32) (ix2 p h)
      = ∑ j : Fin 1280, a (ix2 p j) * w (ix2 j h) := by
  show FloatOps.matmul dot_S1024x1280_S1280x1024_S1024x1024_1_0_0_1_n_n none a w (constant S1024x1024 .f32 0x00000000#32) (ix2 p h) = _
  rw [Ideal.matmul_constant_zero_apply, ← Equiv.sum_comp (contrEquiv1 dot_S1024x1280_S1280x1024_S1024x1024_1_0_0_1_n_n 1280 rfl rfl).symm]
  refine Finset.sum_congr rfl fun k _ => ?_
  have hk := contrEquiv1_symm_val dot_S1024x1280_S1280x1024_S1024x1024_1_0_0_1_n_n 1280 rfl rfl k
  have el : dot_S1024x1280_S1280x1024_S1024x1024_1_0_0_1_n_n.lhsIdx (ix2 p h) ((contrEquiv1 dot_S1024x1280_S1280x1024_S1024x1024_1_0_0_1_n_n 1280 rfl rfl).symm k) = ix2 p k := funext fun ax => Fin.ext (by
    match ax with
    | ⟨0, _⟩ => exact lhs_acc_0 _ _
    | ⟨1, _⟩ => exact (lhs_acc_1 _ _).trans hk)
  have er : dot_S1024x1280_S1280x1024_S1024x1024_1_0_0_1_n_n.rhsIdx (ix2 p h) ((contrEquiv1 dot_S1024x1280_S1280x1024_S1024x1024_1_0_0_1_n_n 1280 rfl rfl).symm k) = ix2 k h := funext fun ax => Fin.ext (by
    match ax with
    | ⟨0, _⟩ => exact (rhs_acc_0 _ _).trans hk
    | ⟨1, _⟩ => exact rhs_acc_1 _ _)
  rw [el, er]

/-! ## The two lane reductions at a row -/

/-- The row sums: entry `p` is the sum of row `p`. -/
theorem rowsum_apply (src : FVec Ideal S1024x1280 .f32) (hφ : FKind.Formats .f32)
    (hacc : (0x00000000#32 : BitVec 32) = 0x00000000#32) (p : Fin 1024) :
    multiReduction .add [1] S1024 src 0x00000000#32 reduces_S1024x1280_S1024 hφ hacc (ix1 p)
      = ∑ j : Fin 1280, src (ix2 p j) := by
  refine (Ideal.multiReduction_add_single src 0x00000000#32 reduces_S1024x1280_S1024 hφ hacc (ix1 p)).trans ?_
  exact Finset.sum_congr rfl fun k _ => congrArg src (funext fun ax => Fin.ext (by
    match ax with
    | ⟨0, _⟩ => rfl
    | ⟨1, _⟩ => rfl))

/-- The row maxima: entry `p` is the running maximum of row `p` from −∞. -/
theorem rowmax_apply (src : FVec Ideal S1024x1280 .f32) (hφ : FKind.Formats .f32)
    (hacc : (0xFF800000#32 : BitVec 32) = 0xFF800000#32) (p : Fin 1024) :
    multiReduction .maximumf [1] S1024 src 0xFF800000#32 reduces_S1024x1280_S1024 hφ hacc (ix1 p)
      = (Finset.univ : Finset (Fin 1280)).fold max (⊥ : EReal) (fun j => src (ix2 p j)) := by
  refine (Ideal.multiReduction_maximumf_single src 0xFF800000#32 reduces_S1024x1280_S1024 hφ hacc (ix1 p)).trans ?_
  have hbot : (FloatOps.ofBits (F := Ideal) .f32 0xFF800000#32 : EReal) = ⊥ := by
    simp [Ideal.ofBits, Ideal.ieee]
  rw [hbot]
  refine congrArg (fun f => (Finset.univ : Finset (Fin 1280)).fold max (⊥ : EReal) f) (funext fun k => ?_)
  exact congrArg src (funext fun ax => Fin.ext (by
    match ax with
    | ⟨0, _⟩ => rfl
    | ⟨1, _⟩ => rfl))

/-- A change of float format is the identity on extended reals. -/
theorem truncf_entry (a : FVec Ideal S1024x1280 .f32) (h : FTy.bf16.bits < FTy.f32.bits) (i : S1024x1280.Idx) :
    (truncf .bf16 a h : FVec Ideal S1024x1280 .bf16) i = a i := rfl

/-! ## The body's values on real blocks -/

section Step

variable (x0 : Vec Ideal S1024x1024 .bf16) (x1 : Vec Ideal S1280x1024 .bf16) (x2 : Vec Ideal S1x1280 .f32)
variable (xb : Fin 1024 → Fin 1024 → ℝ) (wb : Fin 1280 → Fin 1024 → ℝ) (bb : Fin 1280 → ℝ)

/-- The block's logits. -/
theorem logits_entry (hx : ∀ p h, x0 (ix2 p h) = (xb p h : EReal)) (hw : ∀ j h, x1 (ix2 j h) = (wb j h : EReal))
    (hb : ∀ j, x2 (ix2 (0 : Fin 1) j) = (bb j : EReal)) (p : Fin 1024) (j : Fin 1280) :
    k0_pay8 x0 x1 x2 (ix2 p j) = ((rowLogit (xb p) wb bb j : ℝ) : EReal) := by
  unfold k0_pay8 k0_pay7
  dsimp only
  rw [addf_apply, logit_matmul_apply, broadcastTo_1b_ab_apply]
  simp only [shapeCast_self, hx, hw, hb]
  rw [coe_sum_mul, ← EReal.coe_add]
  rfl

/-- The block's row maxima are real numbers. -/
theorem blockmax_real (hx : ∀ p h, x0 (ix2 p h) = (xb p h : EReal)) (hw : ∀ j h, x1 (ix2 j h) = (wb j h : EReal))
    (hb : ∀ j, x2 (ix2 (0 : Fin 1) j) = (bb j : EReal)) : ∃ bm : Fin 1024 → ℝ, ∀ p : Fin 1024,
    (Finset.univ : Finset (Fin 1280)).fold max (⊥ : EReal) (fun j => k0_pay8 x0 x1 x2 (ix2 p j)) = (bm p : EReal) := by
  have h : ∀ p : Fin 1024, ∃ r : ℝ,
      (Finset.univ : Finset (Fin 1280)).fold max (⊥ : EReal) (fun j => k0_pay8 x0 x1 x2 (ix2 p j)) = (r : EReal) := by
    intro p
    simp only [logits_entry x0 x1 x2 xb wb bb hx hw hb]
    exact fold_max_coe Finset.univ ⟨⟨0, by decide⟩, Finset.mem_univ _⟩ _
  choose bm hbm using h
  exact ⟨bm, hbm⟩

variable (v12 v21 : Vec Ideal S1024x1 .f32) (v26 : Vec Ideal S1024x1024 .f32)

/-- The new running maximum: the old one against the block's row maximum. -/
theorem newmax_entry (p : Fin 1024) :
    k0_pay9 x0 x1 x2 v12 (ix2 p (0 : Fin 1))
      = max (v12 (ix2 p (0 : Fin 1))) ((Finset.univ : Finset (Fin 1280)).fold max (⊥ : EReal) (fun j => k0_pay8 x0 x1 x2 (ix2 p j))) := by
  unfold k0_pay9
  dsimp only
  rw [maximumf_apply, shapeCast_a_a1_apply, rowmax_apply]

variable (μ' σ : Fin 1024 → ℝ)

theorem keptmax_entry (hμ : ∀ p, k0_pay9 x0 x1 x2 v12 (ix2 p (0 : Fin 1)) = (μ' p : EReal)) (p : Fin 1024) (q : Fin 128) :
    k0_pay1 (k0_pay14 x0 x1 x2 v12) (ix2 p q) = (μ' p : EReal) := by
  unfold k0_pay1 k0_pay14
  dsimp only
  rw [shapeCast_self, broadcastTo_a1_ab_apply, shapeCast_self, hμ]

theorem scale_entry (hμ : ∀ p, k0_pay9 x0 x1 x2 v12 (ix2 p (0 : Fin 1)) = (μ' p : EReal))
    (hσ : ∀ p, Ideal.exp (v12 (ix2 p (0 : Fin 1)) - (μ' p : EReal)) = (σ p : EReal)) (p : Fin 1024) :
    k0_pay10 x0 x1 x2 v12 (ix2 p (0 : Fin 1)) = (σ p : EReal) := by
  show Ideal.exp (v12 (ix2 p (0 : Fin 1)) - k0_pay9 x0 x1 x2 v12 (ix2 p (0 : Fin 1))) = _
  rw [hμ, hσ]

theorem weights_entry (hx : ∀ p h, x0 (ix2 p h) = (xb p h : EReal)) (hw : ∀ j h, x1 (ix2 j h) = (wb j h : EReal))
    (hb : ∀ j, x2 (ix2 (0 : Fin 1) j) = (bb j : EReal))
    (hμ : ∀ p, k0_pay9 x0 x1 x2 v12 (ix2 p (0 : Fin 1)) = (μ' p : EReal)) (p : Fin 1024) (j : Fin 1280) :
    k0_pay11 x0 x1 x2 v12 (ix2 p j) = ((Real.exp (rowLogit (xb p) wb bb j - μ' p) : ℝ) : EReal) := by
  show Ideal.exp (k0_pay8 x0 x1 x2 (ix2 p j) - broadcastTo S1024x1280 (k0_pay9 x0 x1 x2 v12) broadcasts_S1024x1_S1024x1280 (ix2 p j)) = _
  rw [broadcastTo_a1_ab_apply, hμ, logits_entry x0 x1 x2 xb wb bb hx hw hb, exp_sub_coe]

theorem newsum_entry (hx : ∀ p h, x0 (ix2 p h) = (xb p h : EReal)) (hw : ∀ j h, x1 (ix2 j h) = (wb j h : EReal))
    (hb : ∀ j, x2 (ix2 (0 : Fin 1) j) = (bb j : EReal))
    (hμ : ∀ p, k0_pay9 x0 x1 x2 v12 (ix2 p (0 : Fin 1)) = (μ' p : EReal))
    (hσ : ∀ p, Ideal.exp (v12 (ix2 p (0 : Fin 1)) - (μ' p : EReal)) = (σ p : EReal))
    (lam : Fin 1024 → ℝ) (hl : ∀ p, v21 (ix2 p (0 : Fin 1)) = (lam p : EReal)) (p : Fin 1024) (q : Fin 128) :
    k0_pay2 (k0_pay12 x0 x1 x2 v12 v21) (ix2 p q)
      = ((σ p * lam p + ∑ j : Fin 1280, Real.exp (rowLogit (xb p) wb bb j - μ' p) : ℝ) : EReal) := by
  unfold k0_pay2 k0_pay12
  dsimp only
  rw [shapeCast_self, broadcastTo_a1_ab_apply, shapeCast_self, addf_apply, mulf_apply, shapeCast_a_a1_apply, rowsum_apply,
    scale_entry x0 x1 x2 v12 μ' σ hμ hσ, hl]
  simp only [weights_entry x0 x1 x2 xb wb bb v12 μ' hx hw hb hμ]
  rw [coe_sum, ← EReal.coe_mul, ← EReal.coe_add]

theorem newacc_entry (hx : ∀ p h, x0 (ix2 p h) = (xb p h : EReal)) (hw : ∀ j h, x1 (ix2 j h) = (wb j h : EReal))
    (hb : ∀ j, x2 (ix2 (0 : Fin 1) j) = (bb j : EReal))
    (hμ : ∀ p, k0_pay9 x0 x1 x2 v12 (ix2 p (0 : Fin 1)) = (μ' p : EReal))
    (hσ : ∀ p, Ideal.exp (v12 (ix2 p (0 : Fin 1)) - (μ' p : EReal)) = (σ p : EReal))
    (al : Fin 1024 → Fin 1024 → ℝ) (ha : ∀ p h, v26 (ix2 p h) = (al p h : EReal)) (p h : Fin 1024) :
    k0_pay13 x0 x1 x2 v12 v26 (ix2 p h)
      = ((σ p * al p h + ∑ j : Fin 1280, Real.exp (rowLogit (xb p) wb bb j - μ' p) * wb j h : ℝ) : EReal) := by
  unfold k0_pay13 k0_pay7
  dsimp only
  rw [shapeCast_self, addf_apply, mulf_apply, broadcastTo_a1_ab_apply, acc_matmul_apply,
    scale_entry x0 x1 x2 v12 μ' σ hμ hσ, ha]
  simp only [truncf_entry, shapeCast_self, weights_entry x0 x1 x2 xb wb bb v12 μ' hx hw hb hμ, hw]
  rw [coe_sum_mul, ← EReal.coe_mul, ← EReal.coe_add]

end Step

/-! ## The output block: the accumulator times the reciprocal of the running sum -/

theorem out_entry (v48 : Vec Ideal S1024x1 .f32) (v51 : Vec Ideal S1024x1024 .f32) (lam : Fin 1024 → ℝ)
    (al : Fin 1024 → Fin 1024 → ℝ) (hl : ∀ p, v48 (ix2 p (0 : Fin 1)) = (lam p : EReal)) (hne : ∀ p, lam p ≠ 0)
    (ha : ∀ p h, v51 (ix2 p h) = (al p h : EReal)) (p h : Fin 1024) :
    k0_pay3 v48 v51 (ix2 p h) = ((al p h * (1 / lam p) : ℝ) : EReal) := by
  unfold k0_pay3
  (try dsimp only)
  rw [mulf_apply, broadcastTo_a1_ab_apply, divf_apply, broadcast_apply, ha, hl]
  have h1 : (Scalar.ofBits (F := Ideal) .f32 0x3F800000#32 : EReal) = 1 := by
    show Ideal.ofBits .f32 0x3F800000#32 = 1
    simp [Ideal.ofBits, Ideal.ieee, -EReal.coe_mul]; norm_num
  rw [h1, div_one_coe (hne p), ← EReal.coe_mul]

end Cert.KernelIdeal.BlockStep

end
-- ==== Proof.BlockReads.lean ====
import proofs.«419553_j24120536334837_2_alg».proof.Proof.Gen.KernelIdeal.Frame
import Idealize.ShloMosaic.Lib.Pipeline.Value
import Idealize.ShloMosaic.Lib.ValueIdx

/-! The three input blocks of grid point `t = 25·i + k`, read off the arrays the launch finds: rows
    `1024·i …` of the gathered embeddings (all 1024 columns), rows `1280·k …` of the projection matrix, and
    columns `1280·k …` of the bias row. -/

set_option maxRecDepth 16384

noncomputable section

namespace Cert.KernelIdeal.BlockReads

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Where each window's block sits at point `t`: the row block by `t / 25`, the vocabulary block by `t % 25`. -/
theorem idx_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = t.val % 25
    ∧ win0_3.index t (0 : Fin 2) = t.val / 25 ∧ win0_3.index t (1 : Fin 2) = 0 :=
  (by decide +kernel : ∀ t : Fin grid0.N, _)

theorem N_eq : cfg0.N = 200 := N_0

/-- Row `p` of row block `t / 25`. -/
abbrev row (t : Fin cfg0.N) (p : Fin 1024) : Fin 8192 :=
  ⟨1024 * (t.val / 25) + p.val, by have := t.isLt; have := N_eq; have := p.isLt; omega⟩

/-- Row `j` of vocabulary block `t % 25`. -/
abbrev vrow (t : Fin cfg0.N) (j : Fin 1280) : Fin 32000 :=
  ⟨1280 * (t.val % 25) + j.val, by have := j.isLt; omega⟩

theorem xblk_entry (c : Dev nD) (t : Fin cfg0.N) (p h : Fin 1024) :
    (iblk m c 0 t : Vec F S1024x1024 .bf16) (ix2 p h) = V m c main_v2 (ix2 (row t p) h) := by
  obtain ⟨h0, h1, -⟩ := idx_facts t
  unfold iblk
  rw [View.read_apply]
  show V m c main_v2 _ = V m c main_v2 _
  congr 1
  funext a
  apply Fin.ext
  match a with
  | ⟨0, _⟩ => show win0_0.index t 0 * 1024 + 1 * p.val = 1024 * (t.val / 25) + p.val; rw [h0]; omega
  | ⟨1, _⟩ => show win0_0.index t 1 * 1024 + 1 * h.val = h.val; rw [h1]; omega

theorem wblk_entry (c : Dev nD) (t : Fin cfg0.N) (j : Fin 1280) (h : Fin 1024) :
    (iblk m c 1 t : Vec F S1280x1024 .bf16) (ix2 j h) = V m c main_v3 (ix2 (vrow t j) h) := by
  obtain ⟨-, -, h0, h1, -⟩ := idx_facts t
  unfold iblk
  rw [View.read_apply]
  show V m c main_v3 _ = V m c main_v3 _
  congr 1
  funext a
  apply Fin.ext
  match a with
  | ⟨0, _⟩ => show win0_1.index t 0 * 1280 + 1 * j.val = 1280 * (t.val % 25) + j.val; rw [h0]; omega
  | ⟨1, _⟩ => show win0_1.index t 1 * 1024 + 1 * h.val = h.val; rw [h1]; omega

theorem bblk_entry (c : Dev nD) (t : Fin cfg0.N) (j : Fin 1280) :
    (iblk m c 2 t : Vec F S1x1280 .f32) (ix2 (0 : Fin 1) j) = V m c main_v4 (ix2 (0 : Fin 1) (vrow t j)) := by
  obtain ⟨-, -, -, -, h0, h1, -⟩ := idx_facts t
  unfold iblk
  rw [View.read_apply]
  show V m c main_v4 _ = V m c main_v4 _
  congr 1
  funext a
  apply Fin.ext
  match a with
  | ⟨0, _⟩ => show win0_2.index t 0 * 1 + 1 * 0 = 0; rw [h0]
  | ⟨1, _⟩ => show win0_2.index t 1 * 1280 + 1 * j.val = 1280 * (t.val % 25) + j.val; rw [h1]; omega

end Cert.KernelIdeal.BlockReads

end
-- ==== Proof.RunningSums.lean ====
import proofs.«419553_j24120536334837_2_alg».proof.Proof.Gen.KernelIdeal.Frame
import proofs.«419553_j24120536334837_2_alg».proof.Proof.Pieces
import proofs.«419553_j24120536334837_2_alg».proof.Proof.BlockStep
import proofs.«419553_j24120536334837_2_alg».proof.Proof.BlockReads
import proofs.«419553_j24120536334837_2_alg».proof.Proof.SoftmaxAverage
import proofs.«419553_j24120536334837_2_alg».proof.Proof.IdealReal

/-! The online softmax, point by point. After the point `t = 25·i + k` the three carried buffers hold, for each
    row `p` of row block `i` and some real shift `μ p` (the running maximum — which real it is never matters):
    `μ p` in every lane of the maximum buffer, `∑_{v < 1280(k+1)} e^{z v − μ p}` in every lane of the sum buffer and
    `∑_{v < 1280(k+1)} e^{z v − μ p} · W v h` in the accumulator, `z` the row's logits. By induction on the point:
    a row block's first point starts from the reset values (−∞, 0, 0), every other point from what the point
    before left. At a row block's last point the output block is the accumulator over the sum: the
    softmax-weighted average of column `h` of `W`. -/

set_option maxRecDepth 16384

noncomputable section

namespace Cert.KernelIdeal.RunningSums

open Idealize.ShloMosaic Idealize.ShloMosaic.TcCoe Idealize.SL.Sem Idealize.ShloMosaic.ValueIdx
open Cert.KernelIdeal Cert.KernelIdeal.Gen Cert.Softmax Cert.IdealReal
open Cert.KernelIdeal.Pieces Cert.KernelIdeal.BlockStep Cert.KernelIdeal.BlockReads

/-! ## Lane 0 of a buffer, and the reset values -/

theorem col0_entry (xs : Vec Ideal S1024x128 .f32) (p : Fin 1024) :
    col0 xs (ix2 p (0 : Fin 1)) = xs (ix2 p (0 : Fin 128)) := by
  show xs ((Rect.unit (s := S1024x128) ![0, 0] ![1024, 1] inb_S1024x128_S1024x1_0_0).emb (ix2 p (0 : Fin 1))) = _
  congr 1
  funext a
  apply Fin.ext
  match a with
  | ⟨0, _⟩ => show 0 + 1 * p.val = p.val; omega
  | ⟨1, _⟩ => rfl

theorem reset_max_entry (p : Fin 1024) (q : Fin 128) : (k0_pay5 (F := Ideal)) (ix2 p q) = (⊥ : EReal) := by
  unfold k0_pay5
  (try dsimp only)
  rw [shapeCast_self, broadcast_apply]
  show Ideal.ofBits .f32 0xFF800000#32 = ⊥
  simp [Ideal.ofBits, Ideal.ieee]

theorem reset_sum_entry (p : Fin 1024) (q : Fin 128) : (k0_pay6 (F := Ideal)) (ix2 p q) = ((0 : ℝ) : EReal) := by
  unfold k0_pay6
  (try dsimp only)
  rw [shapeCast_self, broadcast_apply]
  show Ideal.ofBits .f32 0x00000000#32 = _
  rw [Ideal.ofBits_zero_f32, EReal.coe_zero]

theorem reset_acc_entry (p h : Fin 1024) : (k0_pay4 (F := Ideal)) (ix2 p h) = ((0 : ℝ) : EReal) := by
  unfold k0_pay4
  (try dsimp only)
  rw [shapeCast_self, broadcast_apply]
  show Ideal.ofBits .f32 0x00000000#32 = _
  rw [Ideal.ofBits_zero_f32, EReal.coe_zero]

/-! ## One point on real data -/

section Step

variable (Wr : Fin 32000 → Fin 1024 → ℝ) (br : Fin 32000 → ℝ)
variable (x0 : Vec Ideal S1024x1024 .bf16) (x1 : Vec Ideal S1280x1024 .bf16) (x2 : Vec Ideal S1x1280 .f32)
variable (x : Fin 1024 → Fin 1024 → ℝ) (k : ℕ)

/-- A later point of a row block: from the sums over the first `k` blocks at shift `μ` to the sums over the first
    `k + 1` at the new shift. -/
theorem step_next (hx : ∀ p h, x0 (ix2 p h) = (x p h : EReal)) (hw : ∀ j h, x1 (ix2 j h) = (Wr (wrow k j) h : EReal))
    (hb : ∀ j, x2 (ix2 (0 : Fin 1) j) = (br (wrow k j) : EReal))
    (xs0 : Vec Ideal S1024x1024 .f32) (xs1 xs2 : Vec Ideal S1024x128 .f32) (μ : Fin 1024 → ℝ)
    (h1 : ∀ p q, xs1 (ix2 p q) = (μ p : EReal))
    (h2 : ∀ p q, xs2 (ix2 p q) = ((partNum (rowLogit (x p) Wr br) (fun _ => 1) (μ p) k : ℝ) : EReal))
    (h0 : ∀ p h, xs0 (ix2 p h) = ((partNum (rowLogit (x p) Wr br) (fun v => Wr v h) (μ p) k : ℝ) : EReal)) :
    ∃ μ' : Fin 1024 → ℝ,
      (∀ p q, k0_pay1 (k0_pay14 x0 x1 x2 (col0 xs1)) (ix2 p q) = (μ' p : EReal))
      ∧ (∀ p q, k0_pay2 (k0_pay12 x0 x1 x2 (col0 xs1) (col0 xs2)) (ix2 p q)
          = ((partNum (rowLogit (x p) Wr br) (fun _ => 1) (μ' p) (k + 1) : ℝ) : EReal))
      ∧ (∀ p h, k0_pay13 x0 x1 x2 (col0 xs1) xs0 (ix2 p h)
          = ((partNum (rowLogit (x p) Wr br) (fun v => Wr v h) (μ' p) (k + 1) : ℝ) : EReal)) := by
  obtain ⟨bm, hbm⟩ := blockmax_real x0 x1 x2 x (fun j h => Wr (wrow k j) h) (fun j => br (wrow k j)) hx hw hb
  have hμ : ∀ p, k0_pay9 x0 x1 x2 (col0 xs1) (ix2 p (0 : Fin 1)) = ((max (μ p) (bm p) : ℝ) : EReal) := fun p => by
    rw [newmax_entry, hbm, col0_entry, h1, max_coe]
  have hσ : ∀ p, Ideal.exp (col0 xs1 (ix2 p (0 : Fin 1)) - ((max (μ p) (bm p) : ℝ) : EReal))
      = ((Real.exp (μ p - max (μ p) (bm p)) : ℝ) : EReal) := fun p => by
    rw [col0_entry, h1, exp_sub_coe]
  refine ⟨fun p => max (μ p) (bm p), fun p q => keptmax_entry x0 x1 x2 (col0 xs1) _ hμ p q, fun p q => ?_, fun p h => ?_⟩
  · rw [newsum_entry x0 x1 x2 x (fun j h => Wr (wrow k j) h) (fun j => br (wrow k j)) (col0 xs1) (col0 xs2) _ _
      hx hw hb hμ hσ (fun p => partNum (rowLogit (x p) Wr br) (fun _ => 1) (μ p) k) (fun p => by rw [col0_entry, h2]) p q]
    have e := partNum_succ (rowLogit (x p) Wr br) (fun _ => 1) (μ p) (max (μ p) (bm p)) k
    simp only [mul_one] at e
    exact congrArg (fun r : ℝ => (r : EReal)) e
  · rw [newacc_entry x0 x1 x2 x (fun j h => Wr (wrow k j) h) (fun j => br (wrow k j)) (col0 xs1) xs0 _ _
      hx hw hb hμ hσ (fun p h => partNum (rowLogit (x p) Wr br) (fun v => Wr v h) (μ p) k) h0 p h]
    exact congrArg (fun r : ℝ => (r : EReal)) (partNum_succ (rowLogit (x p) Wr br) (fun v => Wr v h) (μ p) (max (μ p) (bm p)) k)

/-- A row block's first point: from the reset values to the sums over the first block. -/
theorem step_first (hk : k = 0) (hx : ∀ p h, x0 (ix2 p h) = (x p h : EReal)) (hw : ∀ j h, x1 (ix2 j h) = (Wr (wrow k j) h : EReal))
    (hb : ∀ j, x2 (ix2 (0 : Fin 1) j) = (br (wrow k j) : EReal)) :
    ∃ μ' : Fin 1024 → ℝ,
      (∀ p q, k0_pay1 (k0_pay14 x0 x1 x2 (col0 (F := Ideal) (k0_pay5 (F := Ideal)))) (ix2 p q) = (μ' p : EReal))
      ∧ (∀ p q, k0_pay2 (k0_pay12 x0 x1 x2 (col0 (F := Ideal) (k0_pay5 (F := Ideal))) (col0 (F := Ideal) (k0_pay6 (F := Ideal)))) (ix2 p q)
          = ((partNum (rowLogit (x p) Wr br) (fun _ => 1) (μ' p) (k + 1) : ℝ) : EReal))
      ∧ (∀ p h, k0_pay13 x0 x1 x2 (col0 (F := Ideal) (k0_pay5 (F := Ideal))) (k0_pay4 (F := Ideal)) (ix2 p h)
          = ((partNum (rowLogit (x p) Wr br) (fun v => Wr v h) (μ' p) (k + 1) : ℝ) : EReal)) := by
  obtain ⟨bm, hbm⟩ := blockmax_real x0 x1 x2 x (fun j h => Wr (wrow k j) h) (fun j => br (wrow k j)) hx hw hb
  have hμ : ∀ p, k0_pay9 x0 x1 x2 (col0 (F := Ideal) (k0_pay5 (F := Ideal))) (ix2 p (0 : Fin 1)) = ((bm p : ℝ) : EReal) := fun p => by
    rw [newmax_entry, hbm, col0_entry, reset_max_entry]
    exact max_eq_right bot_le
  have hσ : ∀ p, Ideal.exp (col0 (F := Ideal) (k0_pay5 (F := Ideal)) (ix2 p (0 : Fin 1)) - ((bm p : ℝ) : EReal)) = ((0 : ℝ) : EReal) := fun p => by
    rw [col0_entry, reset_max_entry, exp_bot_sub_coe, EReal.coe_zero]
  refine ⟨bm, fun p q => keptmax_entry x0 x1 x2 _ _ hμ p q, fun p q => ?_, fun p h => ?_⟩
  · rw [newsum_entry x0 x1 x2 x (fun j h => Wr (wrow k j) h) (fun j => br (wrow k j)) _ _ _ _
      hx hw hb hμ hσ (fun _ => 0) (fun p => by rw [col0_entry, reset_sum_entry]) p q]
    have e := partNum_succ (rowLogit (x p) Wr br) (fun _ => 1) 0 (bm p) k
    subst hk
    rw [partNum_zero, mul_zero] at e
    simp only [mul_one] at e
    rw [zero_mul]
    exact congrArg (fun r : ℝ => (r : EReal)) e
  · rw [newacc_entry x0 x1 x2 x (fun j h => Wr (wrow k j) h) (fun j => br (wrow k j)) _ _ _ _
      hx hw hb hμ hσ (fun _ _ => 0) (fun p h => reset_acc_entry p h) p h]
    have e := partNum_succ (rowLogit (x p) Wr br) (fun v => Wr v h) 0 (bm p) k
    subst hk
    rw [partNum_zero, mul_zero] at e
    rw [zero_mul]
    exact congrArg (fun r : ℝ => (r : EReal)) e

end Step

/-! ## The induction over the grid -/

variable (m : (ℓ : Loc nD τ sig) → Buf (Elt Ideal) ℓ) (c : Dev nD)
variable (Xr : Fin 8192 → Fin 1024 → ℝ) (Wr : Fin 32000 → Fin 1024 → ℝ) (br : Fin 32000 → ℝ)

theorem vrow_eq (t : Fin cfg0.N) (j : Fin 1280) : vrow t j = wrow (t.val % 25) j :=
  Fin.ext (by
    show 1280 * (t.val % 25) + j.val = (1280 * (t.val % 25) + j.val) % 32000
    have := j.isLt
    rw [Nat.mod_eq_of_lt (show 1280 * (t.val % 25) + j.val < 32000 by omega)])

/-- What the carried buffers hold after point `t`. -/
def Inv (t : Fin cfg0.N) : Prop :=
  ∃ μ : Fin 1024 → ℝ,
    (∀ p q, (outsAt0 m c t.val t.isLt).2.2.1 (ix2 p q) = (μ p : EReal))
    ∧ (∀ p q, (outsAt0 m c t.val t.isLt).2.2.2 (ix2 p q)
        = ((partNum (rowLogit (Xr (row t p)) Wr br) (fun _ => 1) (μ p) (t.val % 25 + 1) : ℝ) : EReal))
    ∧ (∀ p h, (outsAt0 m c t.val t.isLt).2.1 (ix2 p h)
        = ((partNum (rowLogit (Xr (row t p)) Wr br) (fun v => Wr v h) (μ p) (t.val % 25 + 1) : ℝ) : EReal))

section Induction

variable (hX : ∀ r h, (V m c main_v2 (ix2 r h) : EReal) = (Xr r h : EReal))
  (hW : ∀ v h, (V m c main_v3 (ix2 v h) : EReal) = (Wr v h : EReal))
  (hB : ∀ v, (V m c main_v4 (ix2 (0 : Fin 1) v) : EReal) = (br v : EReal))
include hX hW hB

theorem hx_at (t : Fin cfg0.N) (p h : Fin 1024) :
    (iblk m c 0 t : Vec Ideal S1024x1024 .bf16) (ix2 p h) = (Xr (row t p) h : EReal) :=
  (xblk_entry m c t p h).trans (hX _ _)

theorem hw_at (t : Fin cfg0.N) (j : Fin 1280) (h : Fin 1024) :
    (iblk m c 1 t : Vec Ideal S1280x1024 .bf16) (ix2 j h) = (Wr (wrow (t.val % 25) j) h : EReal) := by
  rw [wblk_entry m c t j h, hW, vrow_eq]

theorem hb_at (t : Fin cfg0.N) (j : Fin 1280) :
    (iblk m c 2 t : Vec Ideal S1x1280 .f32) (ix2 (0 : Fin 1) j) = (br (wrow (t.val % 25) j) : EReal) := by
  rw [bblk_entry m c t j, hB, vrow_eq]

theorem inv_first (t : Fin cfg0.N) (h0 : t.val % 25 = 0) : Inv m c Xr Wr br t := by
  have h1 : ¬t.val % 25 = 24 := by omega
  have hc0 : cond0_0 (grid0.coords t) := (hcond0_0 t).mpr h0
  have hc1 : ¬cond0_1 (grid0.coords t) := fun h => h1 ((hcond0_1 t).mp h)
  obtain ⟨μ', hm, hl, ha⟩ := step_first Wr br (iblk m c 0 t) (iblk m c 1 t) (iblk m c 2 t) (fun p h => Xr (row t p) h)
    (t.val % 25) h0 (hx_at m c Xr Wr br hX hW hB t) (hw_at m c Xr Wr br hX hW hB t) (hb_at m c Xr Wr br hX hW hB t)
  refine ⟨μ', fun p q => ?_, fun p q => ?_, fun p h => ?_⟩
  · rw [outsAt0_A m c t h0 h1]; dsimp only
    refine (congrFun (max_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) hc0 hc1) (ix2 p q)).trans ?_
    exact hm p q
  · rw [outsAt0_A m c t h0 h1]; dsimp only
    refine (congrFun (sum_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) hc0 hc1) (ix2 p q)).trans ?_
    exact hl p q
  · rw [outsAt0_A m c t h0 h1]; dsimp only
    refine (congrFun (acc_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) hc0 hc1) (ix2 p h)).trans ?_
    exact ha p h

/-- What the point before `t` left, restated at `t`'s own row block and block count (a point that is not a row
    block's first shares its row block with the point before, which has summed `t % 25` blocks). -/
theorem prev_state (t : Fin cfg0.N) (h0 : ¬t.val % 25 = 0)
    (IH : Inv m c Xr Wr br ⟨t.val - 1, (Nat.lt_of_le_of_lt (Nat.sub_le _ _) t.isLt)⟩) :
    ∃ μ : Fin 1024 → ℝ,
      (∀ p q, (outsAt0 m c (t.val - 1) (Nat.lt_of_le_of_lt (Nat.sub_le _ _) t.isLt)).2.2.1 (ix2 p q) = (μ p : EReal))
      ∧ (∀ p q, (outsAt0 m c (t.val - 1) (Nat.lt_of_le_of_lt (Nat.sub_le _ _) t.isLt)).2.2.2 (ix2 p q)
          = ((partNum (rowLogit (Xr (row t p)) Wr br) (fun _ => 1) (μ p) (t.val % 25) : ℝ) : EReal))
      ∧ (∀ p h, (outsAt0 m c (t.val - 1) (Nat.lt_of_le_of_lt (Nat.sub_le _ _) t.isLt)).2.1 (ix2 p h)
          = ((partNum (rowLogit (Xr (row t p)) Wr br) (fun v => Wr v h) (μ p) (t.val % 25) : ℝ) : EReal)) := by
  obtain ⟨μ, i1, i2, i0⟩ := IH
  have hk : (t.val - 1) % 25 + 1 = t.val % 25 := by omega
  have hrow : ∀ p, row ⟨t.val - 1, (Nat.lt_of_le_of_lt (Nat.sub_le _ _) t.isLt)⟩ p = row t p := fun p => Fin.ext (by
    show 1024 * ((t.val - 1) / 25) + p.val = 1024 * (t.val / 25) + p.val
    have : (t.val - 1) / 25 = t.val / 25 := by omega
    rw [this])
  refine ⟨μ, i1, fun p q => ?_, fun p h => ?_⟩
  · have e := i2 p q
    rw [hrow] at e
    dsimp only at e
    rw [hk] at e
    exact e
  · have e := i0 p h
    rw [hrow] at e
    dsimp only at e
    rw [hk] at e
    exact e

/-- The values a point that is not a row block's first computes, from what the point before left. -/
theorem point_values (t : Fin cfg0.N) (h0 : ¬t.val % 25 = 0)
    (IH : Inv m c Xr Wr br ⟨t.val - 1, (Nat.lt_of_le_of_lt (Nat.sub_le _ _) t.isLt)⟩) :
    ∃ μ' : Fin 1024 → ℝ,
      (∀ p q, k0_pay1 (k0_pay14 (iblk m c 0 t) (iblk m c 1 t) (iblk m c 2 t) (col0 (outsAt0 m c (t.val - 1) (Nat.lt_of_le_of_lt (Nat.sub_le _ _) t.isLt)).2.2.1)) (ix2 p q) = (μ' p : EReal))
      ∧ (∀ p q, k0_pay2 (k0_pay12 (iblk m c 0 t) (iblk m c 1 t) (iblk m c 2 t) (col0 (outsAt0 m c (t.val - 1) (Nat.lt_of_le_of_lt (Nat.sub_le _ _) t.isLt)).2.2.1) (col0 (outsAt0 m c (t.val - 1) (Nat.lt_of_le_of_lt (Nat.sub_le _ _) t.isLt)).2.2.2)) (ix2 p q)
          = ((partNum (rowLogit (Xr (row t p)) Wr br) (fun _ => 1) (μ' p) (t.val % 25 + 1) : ℝ) : EReal))
      ∧ (∀ p h, k0_pay13 (iblk m c 0 t) (iblk m c 1 t) (iblk m c 2 t) (col0 (outsAt0 m c (t.val - 1) (Nat.lt_of_le_of_lt (Nat.sub_le _ _) t.isLt)).2.2.1) (outsAt0 m c (t.val - 1) (Nat.lt_of_le_of_lt (Nat.sub_le _ _) t.isLt)).2.1 (ix2 p h)
          = ((partNum (rowLogit (Xr (row t p)) Wr br) (fun v => Wr v h) (μ' p) (t.val % 25 + 1) : ℝ) : EReal)) := by
  obtain ⟨μ, j1, j2, j0⟩ := prev_state m c Xr Wr br hX hW hB t h0 IH
  exact step_next Wr br (iblk m c 0 t) (iblk m c 1 t) (iblk m c 2 t) (fun p h => Xr (row t p) h) (t.val % 25)
    (hx_at m c Xr Wr br hX hW hB t) (hw_at m c Xr Wr br hX hW hB t) (hb_at m c Xr Wr br hX hW hB t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 μ j1 j2 j0

theorem inv_next (t : Fin cfg0.N) (h0 : ¬t.val % 25 = 0)
    (IH : Inv m c Xr Wr br ⟨t.val - 1, (Nat.lt_of_le_of_lt (Nat.sub_le _ _) t.isLt)⟩) : Inv m c Xr Wr br t := by
  have hc0 : ¬cond0_0 (grid0.coords t) := fun h => h0 ((hcond0_0 t).mp h)
  obtain ⟨μ', hm, hl, ha⟩ := point_values m c Xr Wr br hX hW hB t h0 IH
  by_cases h1 : t.val % 25 = 24
  · have hc1 : cond0_1 (grid0.coords t) := (hcond0_1 t).mpr h1
    refine ⟨μ', fun p q => ?_, fun p q => ?_, fun p h => ?_⟩
    · rw [outsAt0_C m c t h0 h1]; dsimp only
      refine (congrFun (max_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hc0 hc1) (ix2 p q)).trans ?_
      exact hm p q
    · rw [outsAt0_C m c t h0 h1]; dsimp only
      refine (congrFun (sum_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hc0 hc1) (ix2 p q)).trans ?_
      exact hl p q
    · rw [outsAt0_C m c t h0 h1]; dsimp only
      refine (congrFun (acc_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hc0 hc1) (ix2 p h)).trans ?_
      exact ha p h
  · have hc1 : ¬cond0_1 (grid0.coords t) := fun h => h1 ((hcond0_1 t).mp h)
    refine ⟨μ', fun p q => ?_, fun p q => ?_, fun p h => ?_⟩
    · rw [outsAt0_B m c t h0 h1]; dsimp only
      refine (congrFun (max_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hc0 hc1) (ix2 p q)).trans ?_
      exact hm p q
    · rw [outsAt0_B m c t h0 h1]; dsimp only
      refine (congrFun (sum_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hc0 hc1) (ix2 p q)).trans ?_
      exact hl p q
    · rw [outsAt0_B m c t h0 h1]; dsimp only
      refine (congrFun (acc_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hc0 hc1) (ix2 p h)).trans ?_
      exact ha p h

/-- After every point the carried buffers hold the partial sums. -/
theorem inv (n : ℕ) : ∀ hn : n < cfg0.N, Inv m c Xr Wr br ⟨n, hn⟩ := by
  induction n with
  | zero => intro hn; exact inv_first m c Xr Wr br hX hW hB ⟨0, hn⟩ (Nat.zero_mod _)
  | succ n ih =>
    intro hn
    by_cases h0 : (n + 1) % 25 = 0
    · exact inv_first m c Xr Wr br hX hW hB ⟨n + 1, hn⟩ h0
    · exact inv_next m c Xr Wr br hX hW hB ⟨n + 1, hn⟩ h0 (ih (Nat.lt_of_succ_lt hn))

/-- At a row block's last point the output block holds, at `(p, h)`, the softmax-weighted average of column `h`
    of the projection matrix under row `p`'s logits. -/
theorem out_last (t : Fin cfg0.N) (h24 : t.val % 25 = 24) (p h : Fin 1024) :
    (outsAt0 m c t.val t.isLt).1 (ix2 p h)
      = ((smavg (rowLogit (Xr (row t p)) Wr br) (fun v => Wr v h) : ℝ) : EReal) := by
  have h0 : ¬t.val % 25 = 0 := by omega
  have hc0 : ¬cond0_0 (grid0.coords t) := fun h => h0 ((hcond0_0 t).mp h)
  have hc1 : cond0_1 (grid0.coords t) := (hcond0_1 t).mpr h24
  obtain ⟨μ', hm, hl, ha⟩ := point_values m c Xr Wr br hX hW hB t h0 (inv m c Xr Wr br hX hW hB (t.val - 1) (Nat.lt_of_le_of_lt (Nat.sub_le _ _) t.isLt))
  have hk25 : t.val % 25 + 1 = 25 := by omega
  rw [hk25] at hl ha
  have hpos : ∀ p, partNum (rowLogit (Xr (row t p)) Wr br) (fun _ => 1) (μ' p) 25 ≠ 0 := fun p => by
    rw [partNum_full]
    exact (Finset.sum_pos (fun v _ => by positivity) Finset.univ_nonempty).ne'
  rw [outsAt0_C m c t h0 h24]; dsimp only
  refine (congrFun (out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 hc0 hc1) (ix2 p h)).trans ?_
  rw [out_entry _ _ (fun p => partNum (rowLogit (Xr (row t p)) Wr br) (fun _ => 1) (μ' p) 25)
    (fun p h => partNum (rowLogit (Xr (row t p)) Wr br) (fun v => Wr v h) (μ' p) 25)
    (fun p => by rw [col0_entry]; exact hl p 0) hpos ha p h]
  refine congrArg (fun r : ℝ => (r : EReal)) ?_
  rw [partNum_full, partNum_full]
  simp only [mul_one]
  exact smavg_shift _ _ _

end Induction

end Cert.KernelIdeal.RunningSums

end
-- ==== Proof.KernelValue.lean ====
import proofs.«419553_j24120536334837_2_alg».proof.Proof.Gen.KernelIdeal.Frame
import proofs.«419553_j24120536334837_2_alg».proof.Proof.RunningSums
import proofs.«419553_j24120536334837_2_alg».proof.Proof.BlockReads
import proofs.«419553_j24120536334837_2_alg».proof.Proof.SoftmaxAverage
import Idealize.ShloMosaic.Lib.Pipeline.Value
import Idealize.ShloMosaic.Lib.StableHlo.Run
import Idealize.ShloMosaic.Lib.ValueIdx

/-! The kernel's result. The output array of the launch is written back one row block at a time, at the last
    of the block's 25 points, so it ends holding at `(r, h)` the softmax-weighted average of column `h` of the
    projection matrix under row `r`'s logits; the reshape after the launch reads row `2048·b + t` at `(b, t, h)`. -/

set_option maxRecDepth 16384

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Softmax
open Cert.KernelIdeal.BlockReads Cert.KernelIdeal.RunningSums

variable (m : (ℓ : Loc nD τ sig) → Buf (Elt Ideal) ℓ) (ρ : Dev nD → PrngReg) (c : Dev nD)
variable (Xr : Fin 8192 → Fin 1024 → ℝ) (Wr : Fin 32000 → Fin 1024 → ℝ) (br : Fin 32000 → ℝ)

/-- What the launch's output array ends holding. -/
def G : Buf (Elt Ideal) ((c : Thread nD τ).loc main_v5) := fun i =>
  ((smavg (rowLogit (Xr ⟨(i 0).val, (i 0).isLt⟩) Wr br) (fun v => Wr v ⟨(i 1).val, (i 1).isLt⟩) : ℝ) : EReal)

theorem G_entry (r : Fin 8192) (h : Fin 1024) :
    G c Xr Wr br (ix2 r h) = ((smavg (rowLogit (Xr r) Wr br) (fun v => Wr v h) : ℝ) : EReal) := rfl

section Run

variable (hX : ∀ r h, (V m c main_v2 (ix2 r h) : EReal) = (Xr r h : EReal))
  (hW : ∀ v h, (V m c main_v3 (ix2 v h) : EReal) = (Wr v h : EReal))
  (hB : ∀ v, (V m c main_v4 (ix2 (0 : Fin 1) v) : EReal) = (br v : EReal))
include hX hW hB

/-- What a row block's last point writes back is that row block of `G`. -/
theorem flushed_eq (t : Fin cfg0.N) (hf : (cfg0.win 3).flush t = true) :
    (dats m 0 c).flushed 3 t = ((cfg0.win 3).blk t).view.read (Elt Ideal) (G c Xr Wr br) := by
  have h24 : t.val % 25 = 24 := (flush0_3 t).mp hf
  show (cfg0.win 3).cut (grid0.coords t) ((dats m 0 c).after 3 t) = _
  rw [after0_3]
  obtain ⟨-, -, -, -, -, -, h0, h1⟩ := idx_facts t
  funext j
  obtain ⟨p, h, rfl⟩ : ∃ (p : Fin 1024) (h : Fin 1024), j = ix2 p h := ⟨j 0, j 1, eq_ix2 j⟩
  show (outsAt0 m c t.val t.isLt).1 (ix2 p h) = G c Xr Wr br (((cfg0.win 3).blk t).view.emb (ix2 p h))
  rw [out_last m c Xr Wr br hX hW hB t h24 p h]
  have e : ((cfg0.win 3).blk t).view.emb (ix2 p h) = ix2 (row t p) h := funext fun a => Fin.ext (by
    match a with
    | ⟨0, _⟩ => show win0_3.index t 0 * 1024 + 1 * p.val = 1024 * (t.val / 25) + p.val; rw [h0]; omega
    | ⟨1, _⟩ => show win0_3.index t 1 * 1024 + 1 * h.val = h.val; rw [h1]; omega)
  rw [e, G_entry]

/-- Every row of the output array lies in the block some row block's last point writes back. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 200 := N_0
  let t : Fin cfg0.N := ⟨25 * ((i 0).val / 1024) + 24, by omega⟩
  have ht : t.val = 25 * ((i 0).val / 1024) + 24 := rfl
  obtain ⟨-, -, -, -, -, -, h0, h1⟩ := idx_facts t
  refine ⟨t, (flush0_3 t).mpr (by omega), ?_⟩
  show i ∈ ((View.whole main_v5).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [h0, ht]; omega
  | ⟨1, _⟩ =>
    show win0_3.index t 1 * 1024 ≤ (i 1).val ∧ (i 1).val < win0_3.index t 1 * 1024 + 1024
    rw [h1]; omega

/-- The output array after the launch. -/
theorem final : (dats m 0 c).arrAt 3 cfg0.N = G c Xr Wr br :=
  (dats m 0 c).arrAt_eq_of_cover 3 (G c Xr Wr br) (flushed_eq m c Xr Wr br hX hW hB) (cover m c Xr Wr br hX hW hB)

/-- The program's result: the reshape of the launch's output array. -/
theorem result_eq :
    Pipeline.afterTail₀ cfgs (dats m) 0 (V0 m) [hostOps1] c main_v6
      = shapeCast S4x2048x1024 (G c Xr Wr br) shapeCasts_S8192x1024_S4x2048x1024 := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 3).trans
    (final m c Xr Wr br hX hW hB)
  funext i
  show shapeCast S4x2048x1024 (Pipeline.withArrays spec0 c (V0 m c) (fun w => (dats m 0 c).arrAt w cfg0.N)
    (Proc.devRef .tc main_v5)) shapeCasts_S8192x1024_S4x2048x1024 i = _
  exact congrFun (congrArg (fun x => shapeCast S4x2048x1024 x shapeCasts_S8192x1024_S4x2048x1024) e) i

/-- The program's result at `(b, t, h)`: row `2048·b + t` of the launch's output. -/
theorem result_entry (b : Fin 4) (t : Fin 2048) (h : Fin 1024) :
    Pipeline.afterTail₀ cfgs (dats m) 0 (V0 m) [hostOps1] c main_v6 (ix3 b t h)
      = ((smavg (rowLogit (Xr ⟨2048 * b.val + t.val, by have := b.isLt; have := t.isLt; omega⟩) Wr br) (fun v => Wr v h) : ℝ) : EReal) := by
  rw [result_eq m c Xr Wr br hX hW hB]
  rw [shapeCast_apply (G c Xr Wr br) shapeCasts_S8192x1024_S4x2048x1024 (ix3 b t h)
    (ix2 (⟨2048 * b.val + t.val, by have := b.isLt; have := t.isLt; omega⟩ : Fin 8192) h) (by
      show ((⟨2, ![8192, 1024]⟩ : Shape).rowMajor (ix2 (⟨2048 * b.val + t.val, by have := b.isLt; have := t.isLt; omega⟩ : Fin 8192) h)).val
        = ((⟨3, ![4, 2048, 1024]⟩ : Shape).rowMajor (ix3 b t h)).val
      rw [Shape.rowMajor_val_two, Shape.rowMajor_val_three]
      show (2048 * b.val + t.val) * 1024 + h.val = (b.val * 2048 + t.val) * 1024 + h.val
      rw [Nat.mul_comm 2048 b.val])]
  exact G_entry c Xr Wr br _ h

end Run

end Cert.KernelIdeal.KernelValue

end
-- ==== Proof.lean ====
/- The five claims of the certificate. The kernel is an online softmax: for each of the 8192 token positions it walks
   the 32000 vocabulary rows in 25 blocks, keeping a running maximum, a running sum of shifted exponentials and a
   running weighted sum of the rows of the projection matrix, and finally divides the weighted sum by the sum. The
   reference takes the logits' maximum first, normalizes the shifted exponentials and then sums the weighted rows.
   Over the extended reals, with every float input finite and every token id a valid row of the embedding table,
   both are the softmax-weighted average `(∑ e^{z v} · W v h) / (∑ e^{z v})` of column `h` of the projection matrix
   under the row's logits `z v = x · W v + b v`: the shift by a maximum cancels in the quotient, whichever real it is.
   The three frames are the generated ones (the reference's is its generated run with the result dropped); nothing
   was rewritten by the idealization, so the preservation claim is trivial. -/
import proofs.«419553_j24120536334837_2_alg».proof.Defs
import proofs.«419553_j24120536334837_2_alg».proof.Proof.Gen.Kernel
import proofs.«419553_j24120536334837_2_alg».proof.Proof.Gen.Kernel.Skeleton
import proofs.«419553_j24120536334837_2_alg».proof.Proof.Gen.Kernel.Launch
import proofs.«419553_j24120536334837_2_alg».proof.Proof.Gen.Kernel.Points
import proofs.«419553_j24120536334837_2_alg».proof.Proof.Gen.Kernel.Frame
import proofs.«419553_j24120536334837_2_alg».proof.Proof.Gen.KernelIdeal
import proofs.«419553_j24120536334837_2_alg».proof.Proof.Gen.KernelIdeal.Skeleton
import proofs.«419553_j24120536334837_2_alg».proof.Proof.Gen.KernelIdeal.Launch
import proofs.«419553_j24120536334837_2_alg».proof.Proof.Gen.KernelIdeal.Points
import proofs.«419553_j24120536334837_2_alg».proof.Proof.Gen.KernelIdeal.Frame
import proofs.«419553_j24120536334837_2_alg».proof.Proof.Gen.ReferenceIdeal
import proofs.«419553_j24120536334837_2_alg».proof.Proof.Gen.Pre_finite_inputs
import proofs.«419553_j24120536334837_2_alg».proof.Proof.Gen.ReferenceIdeal.Run
import proofs.«419553_j24120536334837_2_alg».proof.Proof.Gen.ReferenceIdeal.Read
import proofs.«419553_j24120536334837_2_alg».proof.Proof.PreFacts
import proofs.«419553_j24120536334837_2_alg».proof.Proof.HostPrefix
import proofs.«419553_j24120536334837_2_alg».proof.Proof.RefValue
import proofs.«419553_j24120536334837_2_alg».proof.Proof.KernelValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the softmax-weighted averages, entry by entry. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v6, ?_, ?_⟩
  · exact (θ_run Cert.KernelIdeal.defs _ _).mono (fun r h c =>
      ⟨(h c).2 Cert.KernelIdeal.main_v6 (Pipeline.mem_restRefs_of Cert.KernelIdeal.main_v6 (by decide) (by decide)),
        ((h c).2 Cert.KernelIdeal.main_arg0 (Pipeline.mem_restRefs_of Cert.KernelIdeal.main_arg0 (by decide) (by decide))).trans (Cert.KernelIdeal.Gen.W_main_arg0 m (Cert.KernelIdeal.Gen.dats m) c),
        ((h c).2 Cert.KernelIdeal.main_arg1 (Pipeline.mem_restRefs_of Cert.KernelIdeal.main_arg1 (by decide) (by decide))).trans (Cert.KernelIdeal.Gen.W_main_arg1 m (Cert.KernelIdeal.Gen.dats m) c),
        ((h c).2 Cert.KernelIdeal.main_arg2 (Pipeline.mem_restRefs_of Cert.KernelIdeal.main_arg2 (by decide) (by decide))).trans (Cert.KernelIdeal.Gen.W_main_arg2 m (Cert.KernelIdeal.Gen.dats m) c),
        ((h c).2 Cert.KernelIdeal.main_arg3 (Pipeline.mem_restRefs_of Cert.KernelIdeal.main_arg3 (by decide) (by decide))).trans (Cert.KernelIdeal.Gen.W_main_arg3 m (Cert.KernelIdeal.Gen.dats m) c)⟩)
      (Cert.KernelIdeal.Gen.run_main m ρ)
  · refine (θ_run Cert.ReferenceIdeal.defs _ _).mono (fun r h c => ⟨(h c).1.trans ?_, (h c).2⟩)
      (Cert.ReferenceIdeal.Value.run (F := Ideal) m' ρ')
    obtain ⟨hE, hWf, hBf, hid⟩ := Cert.PreFacts.of_pre _ _ _ _ (hpre c)
    choose E hE using hE
    choose Wf hWf using hWf
    choose bf hBf using hBf
    -- the token of row r = 2048·b + t of the flattened ids
    let tok : Fin 8192 → Fin 32000 := fun r =>
      ⟨(m ((c.tc : Thread Cert.KernelIdeal.nD Cert.KernelIdeal.τ).loc Cert.KernelIdeal.main_arg0) (ix2 (⟨r.val / 2048, by have := r.isLt; omega⟩ : Fin 4) (⟨r.val % 2048, Nat.mod_lt _ (by decide)⟩ : Fin 2048))).toNat, hid _⟩
    have htok : ∀ (b : Fin 4) (t : Fin 2048), tok ⟨2048 * b.val + t.val, by have := b.isLt; have := t.isLt; omega⟩
        = ⟨(m ((c.tc : Thread Cert.KernelIdeal.nD Cert.KernelIdeal.τ).loc Cert.KernelIdeal.main_arg0) (ix2 b t)).toNat, hid _⟩ := fun b t => by
      have hb : (⟨(2048 * b.val + t.val) / 2048, by have := b.isLt; have := t.isLt; omega⟩ : Fin 4) = b := Fin.ext (by have := t.isLt; show (2048 * b.val + t.val) / 2048 = b.val; omega)
      have ht : (⟨(2048 * b.val + t.val) % 2048, Nat.mod_lt _ (by decide)⟩ : Fin 2048) = t := Fin.ext (by have := t.isLt; show (2048 * b.val + t.val) % 2048 = t.val; omega)
      apply Fin.ext
      show (m ((c.tc : Thread Cert.KernelIdeal.nD Cert.KernelIdeal.τ).loc Cert.KernelIdeal.main_arg0) (ix2 (⟨(2048 * b.val + t.val) / 2048, by have := b.isLt; have := t.isLt; omega⟩ : Fin 4) (⟨(2048 * b.val + t.val) % 2048, Nat.mod_lt _ (by decide)⟩ : Fin 2048))).toNat = _
      rw [hb, ht]
    have hX : ∀ (r : Fin 8192) (h : Fin 1024), (Cert.KernelIdeal.Gen.V m c Cert.KernelIdeal.main_v2 (ix2 r h) : EReal) = ((E (ix2 (tok r) h) : ℝ) : EReal) := fun r h => by
      have e := Cert.KernelIdeal.HostPrefix.x_entry m c hid (⟨r.val / 2048, by have := r.isLt; omega⟩ : Fin 4) (⟨r.val % 2048, Nat.mod_lt _ (by decide)⟩ : Fin 2048) h
      have hr : (⟨2048 * (r.val / 2048) + r.val % 2048, by have := r.isLt; omega⟩ : Fin 8192) = r := Fin.ext (Nat.div_add_mod _ _)
      rw [hr] at e
      rw [e, hE]
    have hW : ∀ (v : Fin 32000) (h : Fin 1024), (Cert.KernelIdeal.Gen.V m c Cert.KernelIdeal.main_v3 (ix2 v h) : EReal) = ((Wf (ix2 v h) : ℝ) : EReal) := fun v h => by
      rw [Cert.KernelIdeal.HostPrefix.w_entry m c v h, hWf]
    have hB : ∀ v : Fin 32000, (Cert.KernelIdeal.Gen.V m c Cert.KernelIdeal.main_v4 (ix2 (0 : Fin 1) v) : EReal) = ((bf (ix1 v) : ℝ) : EReal) := fun v => by
      rw [Cert.KernelIdeal.HostPrefix.b_entry m c v, hBf]
    funext i
    obtain ⟨b, t, h, rfl⟩ : ∃ (b : Fin 4) (t : Fin 2048) (h : Fin 1024), i = ix3 b t h := ⟨i 0, i 1, i 2, eq_ix3 i⟩
    rw [Cert.ReferenceIdeal.Read.val_main_v22_eq, (hagree c).1, (hagree c).2.1, (hagree c).2.2.1, (hagree c).2.2.2]
    rw [Cert.ReferenceIdeal.RefValue.entry _ _ _ _ (fun v h => E (ix2 v h)) (fun v h => Wf (ix2 v h)) (fun v => bf (ix1 v))
      (fun v h => hE _) (fun v h => hWf _) (fun v => hBf _) hid b t h]
    refine Eq.trans ?_ (Cert.KernelIdeal.KernelValue.result_entry m c (fun r h => E (ix2 (tok r) h)) (fun v h => Wf (ix2 v h)) (fun v => bf (ix1 v)) hX hW hB b t h).symm
    rw [htok b t]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
